-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x64 : Shape := ⟨2, ![16384, 64]⟩
abbrev S256x512 : Shape := ⟨2, ![256, 512]⟩
abbrev S256 : Shape := ⟨1, ![256]⟩
abbrev S256x64 : Shape := ⟨2, ![256, 64]⟩
abbrev S3x512x512 : Shape := ⟨3, ![3, 512, 512]⟩
abbrev S3x512 : Shape := ⟨2, ![3, 512]⟩
abbrev S128x128x512 : Shape := ⟨3, ![128, 128, 512]⟩
abbrev S128x128 : Shape := ⟨2, ![128, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S128x128x512 : S_.BroadcastsInDim S128x128x512 (![] : Fin 0 → Fin S128x128x512.rank)
  reducesTo_S128x128x512_S_d0_1_2 : S128x128x512.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S3x512 .f32) (main_arg8 : FVec F S128x128x512 .f32) (main_arg9 : FVec F S128x128 .f32) (main_v33 : IVec S_ 1) : IVec S_ 1 :=
  let main_v34 : FVec F S3x512 .f32 := Host.absf main_arg7
  let main_cst_12 : FVec F S_ .f32 := constant S_ .f32 0x7F800000#32
  let main_v35 : FVec F S3x512 .f32 := broadcastInDim S3x512 ![] bcast_S_S3x512 main_cst_12
  let main_v36 : IVec S3x512 1 := cmpf .olt main_v34 main_v35
  let main_c_13 : IVec S_ 1 := constantI S_ 1 1#1
  let main_v37 : IVec S_ 1 := (fun x v => Host.reduce IntOp.andi x v reducesTo_S3x512_S_d0_1 h_S_) main_v36 main_c_13
  let main_v38 : IVec S_ 1 := andi main_v33 main_v37
  let main_v39 : FVec F S128x128x512 .f32 := Host.absf main_arg8
  let main_cst_14 : FVec F S_ .f32 := constant S_ .f32 0x7F800000#32
  let main_v40 : FVec F S128x128x512 .f32 := broadcastInDim S128x128x512 ![] bcast_S_S128x128x512 main_cst_14
  let main_v41 : IVec S128x128x512 1 := cmpf .olt main_v39 main_v40
  let main_c_15 : IVec S_ 1 := constantI S_ 1 1#1
  let main_v42 : IVec S_ 1 := (fun x v => Host.reduce IntOp.andi x v reducesTo_S128x128x512_S_d0_1_2 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg4 : FVec F S256x64 .f32) (main_arg5 : FVec F S256 .f32) (main_arg6 : FVec F S3x512x512 .f32) (main_arg7 : FVec F S3x512 .f32) (main_arg8 : FVec F S128x128x512 .f32) (main_arg9 : FVec F S128x128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S3x512x512 .f32 := Host.absf main_arg6
  let main_cst_10 : FVec F S_ .f32 := constant S_ .f32 0x7F800000#32
  let main_v30 : FVec F S3x512x512 .f32 := broadcastInDim S3x512x512 ![] bcast_S_S3x512x512 main_cst_10
  let main_v31 : IVec S3x512x512 1 := cmpf .olt main_v29 main_v30
  let main_c_11 : IVec S_ 1 := constantI S_ 1 1#1
  let main_v32 : IVec S_ 1 := (fun x v => Host.reduce IntOp.andi x v reducesTo_S3x512x512_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S16384x512 .f32) (main_arg1 : FVec F S16384x64 .f32) (main_arg2 : FVec F S256x512 .f32) (main_arg3 : FVec F S256 .f32) (main_arg4 : FVec F S256x64 .f32) (main_arg5 : FVec F S256 .f32) (main_arg6 : FVec F S3x512x512 .f32) (main_arg7 : FVec F S3x512 .f32) (main_arg8 : FVec F S128x128x512 .f32) (main_arg9 : FVec F S128x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S16384x512 : Shape := ⟨2, ![16384, 512]⟩
abbrev S16384x64 : Shape := ⟨2, ![16384, 64]⟩
abbrev S256x512 : Shape := ⟨2, ![256, 512]⟩
abbrev S256 : Shape := ⟨1, ![256]⟩
abbrev S256x64 : Shape := ⟨2, ![256, 64]⟩
abbrev S3x512x512 : Shape := ⟨3, ![3, 512, 512]⟩
abbrev S3x512 : Shape := ⟨2, ![3, 512]⟩
abbrev S128x128x512 : Shape := ⟨3, ![128, 128, 512]⟩
abbrev S128x128 : Shape := ⟨2, ![128, 128]⟩
abbrev S512x256 : Shape := ⟨2, ![512, 256]⟩
abbrev S1x256 : Shape := ⟨2, ![1, 256]⟩
abbrev S64x256 : Shape := ⟨2, ![64, 256]⟩
abbrev S512x16384 : Shape := ⟨2, ![512, 16384]⟩
abbrev S1x16384 : Shape := ⟨2, ![1, 16384]⟩
abbrev S256x256 : Shape := ⟨2, ![256, 256]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S16384x128x128 : Shape := ⟨3, ![16384, 128, 128]⟩
abbrev S512x4096 : Shape := ⟨2, ![512, 4096]⟩
abbrev S1x4096 : Shape := ⟨2, ![1, 4096]⟩
abbrev S256x32x128 : Shape := ⟨3, ![256, 32, 128]⟩
abbrev S512x1024 : Shape := ⟨2, ![512, 1024]⟩
abbrev S1x1024 : Shape := ⟨2, ![1, 1024]⟩
abbrev S256x1024 : Shape := ⟨2, ![256, 1024]⟩
abbrev S256x8x128 : Shape := ⟨3, ![256, 8, 128]⟩
abbrev S256x8 : Shape := ⟨2, ![256, 8]⟩
abbrev S256x8x1 : Shape := ⟨3, ![256, 8, 1]⟩

abbrev nBuf : Space → Nat
  | .hbm => 26
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384x64, .f32⟩
  | .hbm, ⟨2, _⟩ => ⟨S256x512, .f32⟩
  | .hbm, ⟨3, _⟩ => ⟨S256, .f32⟩
  | .hbm, ⟨4, _⟩ => ⟨S256x64, .f32⟩
  | .hbm, ⟨5, _⟩ => ⟨S256, .f32⟩
  | .hbm, ⟨6, _⟩ => ⟨S3x512x512, .f32⟩
  | .hbm, ⟨7, _⟩ => ⟨S3x512, .f32⟩
  | .hbm, ⟨8, _⟩ => ⟨S128x128x512, .f32⟩
  | .hbm, ⟨9, _⟩ => ⟨S128x128, .f32⟩
  | .hbm, ⟨10, _⟩ => ⟨S16384x512, .bf16⟩
  | .hbm, ⟨11, _⟩ => ⟨S16384x64, .bf16⟩
  | .hbm, ⟨12, _⟩ => ⟨S512x256, .f32⟩
  | .hbm, ⟨13, _⟩ => ⟨S512x256, .bf16⟩
  | .hbm, ⟨14, _⟩ => ⟨S1x256, .f32⟩
  | .hbm, ⟨15, _⟩ => ⟨S64x256, .f32⟩
  | .hbm, ⟨16, _⟩ => ⟨S64x256, .bf16⟩
  | .hbm, ⟨17, _⟩ => ⟨S1x256, .f32⟩
  | .hbm, ⟨18, _⟩ => ⟨S3x512x512, .f32⟩
  | .hbm, ⟨19, _⟩ => ⟨S3x512x512, .bf16⟩
  | .hbm, ⟨20, _⟩ => ⟨S16384x512, .f32⟩
  | .hbm, ⟨21, _⟩ => ⟨S512x16384, .f32⟩
  | .hbm, ⟨22, _⟩ => ⟨S512x16384, .bf16⟩
  | .hbm, ⟨23, _⟩ => ⟨S1x16384, .f32⟩
  | .hbm, ⟨24, _⟩ => ⟨S16384x512, .bf16⟩
  | .hbm, ⟨25, _⟩ => ⟨S16384x128x128, .f32⟩
  | .local _ .vmem, ⟨0, _⟩ => ⟨S256x512, .bf16⟩
  | .local _ .vmem, ⟨1, _⟩ => ⟨S256x512, .bf16⟩
  | .local _ .vmem, ⟨2, _⟩ => ⟨S256x64, .bf16⟩
  | .local _ .vmem, ⟨3, _⟩ => ⟨S256x64, .bf16⟩
  | .local _ .vmem, ⟨4, _⟩ => ⟨S512x256, .bf16⟩
  | .local _ .vmem, ⟨5, _⟩ => ⟨S1x256, .f32⟩
  | .local _ .vmem, ⟨6, _⟩ => ⟨S64x256, .bf16⟩
  | .local _ .vmem, ⟨7, _⟩ => ⟨S1x256, .f32⟩
  | .local _ .vmem, ⟨8, _⟩ => ⟨S3x512x512, .bf16⟩
  | .local _ .vmem, ⟨9, _⟩ => ⟨S3x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S512x4096, .bf16⟩
  | .local _ .vmem, ⟨15, _⟩ => ⟨S512x4096, .bf16⟩
  | .local _ .vmem, ⟨16, _⟩ => ⟨S1x4096, .f32⟩
  | .local _ .vmem, ⟨17, _⟩ => ⟨S1x4096, .f32⟩
  | .local _ .vmem, ⟨18, _⟩ => ⟨S256x32x128, .f32⟩
  | .local _ .vmem, ⟨19, _⟩ => ⟨S256x32x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![4, 64], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  transposes_S256x512_S512x256_1_0 : S256x512.Transposes [1, 0] S512x256
  shapeCasts_S256_S1x256 : S256.ShapeCasts S1x256
  transposes_S256x64_S64x256_1_0 : S256x64.Transposes [1, 0] S64x256
  transposes_S3x512x512_S3x512x512_0_2_1 : S3x512x512.Transposes [0, 2, 1] S3x512x512
  shapeCasts_S128x128x512_S16384x512 : S128x128x512.ShapeCasts S16384x512
  transposes_S16384x512_S512x16384_1_0 : S16384x512.Transposes [1, 0] S512x16384
  shapeCasts_S128x128_S1x16384 : S128x128.ShapeCasts S1x16384
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  concatenates_S256x256_S256x256_S256x512_d1 : Shape.Concatenates [S256x256, S256x256] S256x512 1
  inb_S3x512x512_S1x512x512_0_0_0 : ∀ a, (![0, 0, 0] : Fin 3 → Nat) a + S1x512x512.size a ≤ S3x512x512.size a
  h_S1x512x512 : 0 < S1x512x512.numel
  shapeCasts_S1x512x512_S512x512 : S1x512x512.ShapeCasts S512x512
  inb_S3x512_S1x512_0_0 : ∀ a, (![0, 0] : Fin 2 → Nat) a + S1x512.size a ≤ S3x512.size a
  h_S1x512 : 0 < S1x512.numel
  shapeCasts_S1x512_S512 : S1x512.ShapeCasts S512
  shapeCasts_S512_S1x512 : S512.ShapeCasts S1x512
  broadcasts_S1x512_S256x512 : S1x512.Broadcasts S256x512
  inb_S3x512x512_S1x512x512_1_0_0 : ∀ a, (![1, 0, 0] : Fin 3 → Nat) a + S1x512x512.size a ≤ S3x512x512.size a
  inb_S3x512_S1x512_1_0 : ∀ a, (![1, 0] : Fin 2 → Nat) a + S1x512.size a ≤ S3x512.size a
  inb_S3x512x512_S1x512x512_2_0_0 : ∀ a, (![2, 0, 0] : Fin 3 → Nat) a + S1x512x512.size a ≤ S3x512x512.size a
  inb_S3x512_S1x512_2_0 : ∀ a, (![2, 0] : Fin 2 → Nat) a + S1x512.size a ≤ S3x512.size a
  packedbf16_S256x512_S256x512_0_0 : (Rect.unit (s := S256x512) ![0, 0] S256x512.size inb_S256x512_S256x512_0_0).PackedRows (EltTy.packing .bf16)
  inb_S512x4096_S512x1024_0_0 : ∀ a, (![0, 0] : Fin 2 → Nat) a + S512x1024.size a ≤ S512x4096.size a
  h_S512x1024 : 0 < S512x1024.numel
  shapeCasts_S512x1024_S512x1024 : S512x1024.ShapeCasts S512x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  shapeCasts_S256x1024_S256x8x128 : S256x1024.ShapeCasts S256x8x128
  reduces_S256x8x128_S256x8 : S256x8x128.Reduces [2] S256x8
  shapeCasts_S256x8_S256x8x1 : S256x8.ShapeCasts S256x8x1
  broadcasts_S256x8x1_S256x8x128 : S256x8x1.Broadcasts S256x8x128
  inb_S256x32x128_S256x8x128_0_0_0 : ∀ a, (![0, 0, 0] : Fin 3 → Nat) a + S256x8x128.size a ≤ S256x32x128.size a
  h_S256x8x128 : 0 < S256x8x128.numel
  inb_S512x4096_S512x1024_0_1024 : ∀ a, (![0, 1024] : Fin 2 → Nat) a + S512x1024.size a ≤ S512x4096.size a
  inb_S1x4096_S1x1024_0_1024 : ∀ a, (![0, 1024] : Fin 2 → Nat) a + S1x1024.size a ≤ S1x4096.size a
  inb_S256x32x128_S256x8x128_0_8_0 : ∀ a, (![0, 8, 0] : Fin 3 → Nat) a + S256x8x128.size a ≤ S256x32x128.size a
  inb_S512x4096_S512x1024_0_2048 : ∀ a, (![0, 2048] : Fin 2 → Nat) a + S512x1024.size a ≤ S512x4096.size a
  inb_S1x4096_S1x1024_0_2048 : ∀ a, (![0, 2048] : Fin 2 → Nat) a + S1x1024.size a ≤ S1x4096.size a
  inb_S256x32x128_S256x8x128_0_16_0 : ∀ a, (![0, 16, 0] : Fin 3 → Nat) a + S256x8x128.size a ≤ S256x32x128.size a
  inb_S512x4096_S512x1024_0_3072 : ∀ a, (![0, 3072] : Fin 2 → Nat) a + S512x1024.size a ≤ S512x4096.size a
  inb_S1x4096_S1x1024_0_3072 : ∀ a, (![0, 3072] : Fin 2 → Nat) a + S1x1024.size a ≤ S1x4096.size a
  inb_S256x32x128_S256x8x128_0_24_0 : ∀ a, (![0, 24, 0] : Fin 3 → Nat) a + S256x8x128.size a ≤ S256x32x128.size a
  dot_S256x512_S512x256_S256x256_1_0_0_1_n_n_wf : DotDims.WF S256x512 S512x256 S256x256 [1] [0] [0] [1] [] []
  dot_S256x64_S64x256_S256x256_1_0_0_1_n_n_wf : DotDims.WF S256x64 S64x256 S256x256 [1] [0] [0] [1] [] []
  dot_S256x512_S512x512_S256x512_1_0_0_1_n_n_wf : DotDims.WF S256x512 S512x512 S256x512 [1] [0] [0] [1] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .bf16 = 32 ∨ (Rect.block (s := S16384x512) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S16384x64.size a
  hwx0_1 : ∀ i : grid0.Coords, EltTy.bits .bf16 = 32 ∨ (Rect.block (s := S16384x64) S256x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .bf16 = 32 ∨ (Rect.block (s := S64x256) S64x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x512x512.size a ≤ S3x512x512.size a
  hwx0_6 : ∀ i : grid0.Coords, EltTy.bits .bf16 = 32 ∨ (Rect.block (s := S3x512x512) S3x512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x512.size a ≤ S3x512.size a
  hwx0_7 : ∀ i : grid0.Coords, EltTy.bits .f32 = 32 ∨ (Rect.block (s := S3x512) S3x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S16384x512.size a
  hwx0_8 : ∀ i : grid0.Coords, EltTy.bits .bf16 = 32 ∨ (Rect.block (s := S16384x512) S256x512.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S16384x512.size a
  hwx1_0 : ∀ i : grid1.Coords, EltTy.bits .bf16 = 32 ∨ (Rect.block (s := S16384x512) S256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S512x16384.size a
  hwx1_1 : ∀ i : grid1.Coords, EltTy.bits .bf16 = 32 ∨ (Rect.block (s := S512x16384) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x16384.size a
  hwx1_2 : ∀ i : grid1.Coords, EltTy.bits .f32 = 32 ∨ (Rect.block (s := S1x16384) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x32x128.size a ≤ S16384x128x128.size a
  hwx1_3 : ∀ i : grid1.Coords, EltTy.bits .f32 = 32 ∨ (Rect.block (s := S16384x128x128) S256x32x128.size (cc1_transform_3 i) (hinb1_3 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S3x512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S256x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v14) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S256x32x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x512 : Shape := ⟨2, ![16384, 512]⟩
abbrev S16384x64 : Shape := ⟨2, ![16384, 64]⟩
abbrev S256x512 : Shape := ⟨2, ![256, 512]⟩
abbrev S256 : Shape := ⟨1, ![256]⟩
abbrev S256x64 : Shape := ⟨2, ![256, 64]⟩
abbrev S3x512x512 : Shape := ⟨3, ![3, 512, 512]⟩
abbrev S3x512 : Shape := ⟨2, ![3, 512]⟩
abbrev S128x128x512 : Shape := ⟨3, ![128, 128, 512]⟩
abbrev S128x128 : Shape := ⟨2, ![128, 128]⟩
abbrev S512x256 : Shape := ⟨2, ![512, 256]⟩
abbrev S16384x256 : Shape := ⟨2, ![16384, 256]⟩
abbrev S1x256 : Shape := ⟨2, ![1, 256]⟩
abbrev S64x256 : Shape := ⟨2, ![64, 256]⟩
abbrev S_ : Shape := ⟨0, ![]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S16384x128x128 : Shape := ⟨3, ![16384, 128, 128]⟩
abbrev S1x128x128 : Shape := ⟨3, ![1, 128, 128]⟩
abbrev S16384x128 : Shape := ⟨2, ![16384, 128]⟩
abbrev S16384x128x1 : Shape := ⟨3, ![16384, 128, 1]⟩

abbrev nBuf : Space → Nat
  | .hbm => 75
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x64, .f32⟩
  | .hbm, ⟨2, _⟩ => ⟨S256x512, .f32⟩
  | .hbm, ⟨3, _⟩ => ⟨S256, .f32⟩
  | .hbm, ⟨4, _⟩ => ⟨S256x64, .f32⟩
  | .hbm, ⟨5, _⟩ => ⟨S256, .f32⟩
  | .hbm, ⟨6, _⟩ => ⟨S3x512x512, .f32⟩
  | .hbm, ⟨7, _⟩ => ⟨S3x512, .f32⟩
  | .hbm, ⟨8, _⟩ => ⟨S128x128x512, .f32⟩
  | .hbm, ⟨9, _⟩ => ⟨S128x128, .f32⟩
  | .hbm, ⟨10, _⟩ => ⟨S512x256, .f32⟩
  | .hbm, ⟨11, _⟩ => ⟨S16384x256, .f32⟩
  | .hbm, ⟨12, _⟩ => ⟨S1x256, .f32⟩
  | .hbm, ⟨13, _⟩ => ⟨S16384x256, .f32⟩
  | .hbm, ⟨14, _⟩ => ⟨S16384x256, .f32⟩
  | .hbm, ⟨15, _⟩ => ⟨S64x256, .f32⟩
  | .hbm, ⟨16, _⟩ => ⟨S16384x256, .f32⟩
  | .hbm, ⟨17, _⟩ => ⟨S1x256, .f32⟩
  | .hbm, ⟨18, _⟩ => ⟨S16384x256, .f32⟩
  | .hbm, ⟨19, _⟩ => ⟨S16384x256, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S1x512x512, .f32⟩
  | .hbm, ⟨25, _⟩ => ⟨S512x512, .f32⟩
  | .hbm, ⟨26, _⟩ => ⟨S512x512, .f32⟩
  | .hbm, ⟨27, _⟩ => ⟨S16384x512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S1x512x512, .f32⟩
  | .hbm, ⟨37, _⟩ => ⟨S512x512, .f32⟩
  | .hbm, ⟨38, _⟩ => ⟨S512x512, .f32⟩
  | .hbm, ⟨39, _⟩ => ⟨S16384x512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S1x512x512, .f32⟩
  | .hbm, ⟨49, _⟩ => ⟨S512x512, .f32⟩
  | .hbm, ⟨50, _⟩ => ⟨S512x512, .f32⟩
  | .hbm, ⟨51, _⟩ => ⟨S16384x512, .f32⟩
  | .hbm, ⟨52, _⟩ => ⟨S1x512, .f32⟩
  | .hbm, ⟨53, _⟩ => ⟨S512, .f32⟩
  | .hbm, ⟨54, _⟩ => ⟨S1x512, .f32⟩
  | .hbm, ⟨55, _⟩ => ⟨S16384x512, .f32⟩
  | .hbm, ⟨56, _⟩ => ⟨S16384x512, .f32⟩
  | .hbm, ⟨57, _⟩ => ⟨S16384x128x128, .f32⟩
  | .hbm, ⟨58, _⟩ => ⟨S1x128x128, .f32⟩
  | .hbm, ⟨59, _⟩ => ⟨S16384x128x128, .f32⟩
  | .hbm, ⟨60, _⟩ => ⟨S16384x128x128, .f32⟩
  | .hbm, ⟨61, _⟩ => ⟨S_, .f32⟩
  | .hbm, ⟨62, _⟩ => ⟨S16384x128, .f32⟩
  | .hbm, ⟨63, _⟩ => ⟨S_, .f32⟩
  | .hbm, ⟨64, _⟩ => ⟨S16384x128, .f32⟩
  | .hbm, ⟨65, _⟩ => ⟨S16384x128, .f32⟩
  | .hbm, ⟨66, _⟩ => ⟨S16384x128x1, .f32⟩
  | .hbm, ⟨67, _⟩ => ⟨S16384x128x128, .f32⟩
  | .hbm, ⟨68, _⟩ => ⟨S16384x128x128, .f32⟩
  | .hbm, ⟨69, _⟩ => ⟨S16384x128x128, .f32⟩
  | .hbm, ⟨70, _⟩ => ⟨S_, .f32⟩
  | .hbm, ⟨71, _⟩ => ⟨S16384x128, .f32⟩
  | .hbm, ⟨72, _⟩ => ⟨S16384x128x1, .f32⟩
  | .hbm, ⟨73, _⟩ => ⟨S16384x128x128, .f32⟩
  | .hbm, ⟨74, _⟩ => ⟨S16384x128x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_cst : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call2_cst : Ref sig .tc := ⟨.hbm, 45, rfl⟩
abbrev main_call2_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst : Ref sig .tc := ⟨.hbm, 61, rfl⟩
abbrev main_v45 : Ref sig .tc := ⟨.hbm, 62, rfl⟩
abbrev main_cst_0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_1 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S256x64_S64x256_1_0 : S256x64.Transposes [1, 0] S64x256
  concatenates_S16384x256_S16384x256_S16384x512_d1 : Shape.Concatenates [S16384x256, S16384x256] S16384x512 1
  bcast_S_S16384x512 : S_.BroadcastsInDim S16384x512 (![] : Fin 0 → Fin S16384x512.rank)
  slices_S3x512x512_S1x512x512_0_0_0 : S3x512x512.Slices ![0, 0, 0] S1x512x512
  shapeCasts_S1x512x512_S512x512 : S1x512x512.ShapeCasts S512x512
  transposes_S512x512_S512x512_1_0 : S512x512.Transposes [1, 0] S512x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S128x128_S1x128x128_1_2 : S128x128.BroadcastsInDim S1x128x128 (![1, 2] : Fin 2 → Fin S1x128x128.rank)
  bcast_S1x128x128_S16384x128x128_0_1_2 : S1x128x128.BroadcastsInDim S16384x128x128 (![0, 1, 2] : Fin 3 → Fin S16384x128x128.rank)
  reducesTo_S16384x128x128_S16384x128_d2 : S16384x128x128.ReducesTo [2] S16384x128
  h_S_ : 0 < S_.numel
  bcast_S_S16384x128 : S_.BroadcastsInDim S16384x128 (![] : Fin 0 → Fin S16384x128.rank)
  bcast_S16384x128_S16384x128x1_0_1 : S16384x128.BroadcastsInDim S16384x128x1 (![0, 1] : Fin 2 → Fin S16384x128x1.rank)
  bcast_S16384x128x1_S16384x128x128_0_1_2 : S16384x128x1.BroadcastsInDim S16384x128x128 (![0, 1, 2] : Fin 3 → Fin S16384x128x128.rank)
  dot_S16384x512_S512x256_S16384x256_1_0_0_1_n_n_wf : DotDims.WF S16384x512 S512x256 S16384x256 [1] [0] [0] [1] [] []
  dot_S16384x64_S64x256_S16384x256_1_0_0_1_n_n_wf : DotDims.WF S16384x64 S64x256 S16384x256 [1] [0] [0] [1] [] []
  dot_S16384x512_S512x512_S16384x512_1_0_0_1_n_n_wf : DotDims.WF S16384x512 S512x512 S16384x512 [1] [0] [0] [1] [] []
  dot_S16384x512_S128x128x512_S16384x128x128_1_2_0_01_n_n_wf : DotDims.WF S16384x512 S128x128x512 S16384x128x128 [1] [2] [0] [0, 1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x64_S64x256_S16384x256_1_0_0_1_n_n : DotDims S16384x64 S64x256 S16384x256 where
  lhsContracting := [1]
  rhsContracting := [0]
  lhsNonContracting := [0]
  rhsNonContracting := [1]
  lhsBatch := []
  rhsBatch := []
  wf := dot_S16384x64_S64x256_S16384x256_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S128x128x512_S16384x128x128_1_2_0_01_n_n : DotDims S16384x512 S128x128x512 S16384x128x128 where
  lhsContracting := [1]
  rhsContracting := [2]
  lhsNonContracting := [0]
  rhsNonContracting := [0, 1]
  lhsBatch := []
  rhsBatch := []
  wf := dot_S16384x512_S128x128x512_S16384x128x128_1_2_0_01_n_n_wf

class Facts : Prop extends Facts₀ where

variable [Facts]
-- ==== Proof.Spec.lean ====
/-
  The function both programs compute, over the extended reals, written on coordinates alone.

  A batch row's observation and action are projected by two affine maps whose outputs are laid side by side
  (columns 0..255 from the observation, 256..511 from the action); three affine layers follow, each applied to the
  positive part of its input; the 512 features then feed 128 heads of 128 logits each, and every head's logits go
  through a softmax: the exponential of the logit less the head's largest logit, over the sum of those exponentials.

  Arrays enter as functions of their coordinates, so that a program holding a weight matrix transposed, flattened
  or cut into blocks meets this text by naming how it reads the matrix at (row, column) and nothing else.
-/
import Idealize.ShloMosaic.PureOps.Ideal
import Mathlib.Algebra.BigOperators.Group.Finset.Basic
import Mathlib.Data.Finset.Fold

noncomputable section

namespace Cert.Spec

open Idealize.ShloMosaic
open scoped BigOperators

/-- The positive part. -/
def relu (x : EReal) : EReal := max x 0

/-- The two projections side by side: column `j < 256` is the observation row against row `j` of the observation
    weights plus that bias, column `j ≥ 256` the action row against row `j - 256` of the action weights plus that bias. -/
def proj (obs : Fin 16384 → Fin 512 → EReal) (act : Fin 16384 → Fin 64 → EReal)
    (wo : Fin 256 → Fin 512 → EReal) (bo : Fin 256 → EReal)
    (wa : Fin 256 → Fin 64 → EReal) (ba : Fin 256 → EReal) (b : Fin 16384) (j : Fin 512) : EReal :=
  if h : j.val < 256 then (∑ k : Fin 512, obs b k * wo ⟨j.val, h⟩ k) + bo ⟨j.val, h⟩
  else (∑ k : Fin 64, act b k * wa ⟨j.val - 256, by omega⟩ k) + ba ⟨j.val - 256, by omega⟩

/-- One affine layer on the positive part of its input; `w j k` is the weight from input `k` to output `j`. -/
def layer (w : Fin 512 → Fin 512 → EReal) (bias : Fin 512 → EReal) (x : Fin 512 → EReal) (j : Fin 512) : EReal :=
  (∑ k : Fin 512, relu (x k) * w j k) + bias j

/-- The features of batch row `b`: the projections through the three layers. -/
def feat (obs : Fin 16384 → Fin 512 → EReal) (act : Fin 16384 → Fin 64 → EReal)
    (wo : Fin 256 → Fin 512 → EReal) (bo : Fin 256 → EReal)
    (wa : Fin 256 → Fin 64 → EReal) (ba : Fin 256 → EReal)
    (wfc : Fin 3 → Fin 512 → Fin 512 → EReal) (bfc : Fin 3 → Fin 512 → EReal) (b : Fin 16384) : Fin 512 → EReal :=
  layer (wfc 2) (bfc 2) (layer (wfc 1) (bfc 1) (layer (wfc 0) (bfc 0) (proj obs act wo bo wa ba b)))

/-- Logit `o` of head `h` from a feature row; `wk h o f` is the weight from feature `f`. -/
def logit (x : Fin 512 → EReal) (wk : Fin 128 → Fin 128 → Fin 512 → EReal) (bk : Fin 128 → Fin 128 → EReal)
    (h o : Fin 128) : EReal :=
  (∑ f : Fin 512, x f * wk h o f) + bk h o

/-- The largest of a head's 128 logits (the fold of `max` from the bottom element). -/
def rowMax (l : Fin 128 → EReal) : EReal := (Finset.univ : Finset (Fin 128)).fold max ⊥ l

/-- The softmax of a head's logits at `o`. -/
def softmax (l : Fin 128 → EReal) (o : Fin 128) : EReal :=
  Ideal.div (Ideal.exp (l o - rowMax l)) (∑ o' : Fin 128, Ideal.exp (l o' - rowMax l))

/-- The result at (batch row, head, logit) from a feature matrix and the head weights. -/
def heads (x : Fin 16384 → Fin 512 → EReal) (wk : Fin 128 → Fin 128 → Fin 512 → EReal)
    (bk : Fin 128 → Fin 128 → EReal) (b : Fin 16384) (h o : Fin 128) : EReal :=
  softmax (logit (x b) wk bk h) o

/-- The pattern of the single-precision negative infinity denotes the bottom element. -/
theorem ofBits_neg_inf : Ideal.ofBits .f32 0xFF800000#32 = ⊥ := by simp [Ideal.ofBits, Ideal.ieee]

/-- The position of (head, logit) among the 16384 flattened columns. -/
def flat (h o : Fin 128) : Fin 16384 := ⟨128 * h.val + o.val, by have := h.isLt; have := o.isLt; omega⟩

end Cert.Spec

end
-- ==== Proof.Glue.lean ====
/-
  What the first pallas_call finds in its operand arrays, and the second in the two it does not get from the first:
  the host operations before the calls only change number formats (the identity on the extended reals), transpose
  weight matrices, and flatten or pad shapes, so each operand read at an index is an argument read at the matching
  index. Then the two calls' results are chained: the second call's feature operand is the first call's result.
-/
import proofs.«408686_j62697932587080_3_alg».proof.Proof.Gen.KernelIdeal.Frame
import proofs.«408686_j62697932587080_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Glue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## The operand arrays as whole-array terms of the arguments -/

/-- The observations, in the narrower format. -/
theorem entry_obs (c : Dev nD) : @Eq (FVec Ideal S16384x512 .bf16) (V1 m ρ c main_v0) (truncf .bf16 (m ((c : Thread nD τ).loc main_arg0) : FVec Ideal S16384x512 .f32) bitsLt_bf16_f32) := by
  dsimp only [V1, W1, hostOps0]
  after_results <;> rfl

/-- The actions, in the narrower format. -/
theorem entry_act (c : Dev nD) : @Eq (FVec Ideal S16384x64 .bf16) (V1 m ρ c main_v1) (truncf .bf16 (m ((c : Thread nD τ).loc main_arg1) : FVec Ideal S16384x64 .f32) bitsLt_bf16_f32) := by
  dsimp only [V1, W1, hostOps0]
  after_results <;> rfl

/-- The observation weights, transposed. -/
theorem entry_wo (c : Dev nD) : @Eq (FVec Ideal S512x256 .bf16) (V1 m ρ c main_v3) (truncf .bf16 (transpose S512x256 [1, 0] (m ((c : Thread nD τ).loc main_arg2) : FVec Ideal S256x512 .f32) transposes_S256x512_S512x256_1_0) bitsLt_bf16_f32) := by
  dsimp only [V1, W1, hostOps0]
  after_results <;> rfl

/-- The observation bias as one row. -/
theorem entry_bo (c : Dev nD) : @Eq (FVec Ideal S1x256 .f32) (V1 m ρ c main_v4) (shapeCast S1x256 (m ((c : Thread nD τ).loc main_arg3) : FVec Ideal S256 .f32) shapeCasts_S256_S1x256) := by
  dsimp only [V1, W1, hostOps0]
  after_results <;> rfl

/-- The action weights, transposed. -/
theorem entry_wa (c : Dev nD) : @Eq (FVec Ideal S64x256 .bf16) (V1 m ρ c main_v6) (truncf .bf16 (transpose S64x256 [1, 0] (m ((c : Thread nD τ).loc main_arg4) : FVec Ideal S256x64 .f32) transposes_S256x64_S64x256_1_0) bitsLt_bf16_f32) := by
  dsimp only [V1, W1, hostOps0]
  after_results <;> rfl

/-- The action bias as one row. -/
theorem entry_ba (c : Dev nD) : @Eq (FVec Ideal S1x256 .f32) (V1 m ρ c main_v7) (shapeCast S1x256 (m ((c : Thread nD τ).loc main_arg5) : FVec Ideal S256 .f32) shapeCasts_S256_S1x256) := by
  dsimp only [V1, W1, hostOps0]
  after_results <;> rfl

/-- The three layers' weights, each transposed. -/
theorem entry_wfc (c : Dev nD) : @Eq (FVec Ideal S3x512x512 .bf16) (V1 m ρ c main_v9) (truncf .bf16 (transpose S3x512x512 [0, 2, 1] (m ((c : Thread nD τ).loc main_arg6) : FVec Ideal S3x512x512 .f32) transposes_S3x512x512_S3x512x512_0_2_1) bitsLt_bf16_f32) := by
  dsimp only [V1, W1, hostOps0]
  after_results <;> rfl

/-- The layers' biases: no host operation writes them. -/
theorem entry_bfc (c : Dev nD) : @Eq (FVec Ideal S3x512 .f32) (V1 m ρ c main_arg7) (m ((c : Thread nD τ).loc main_arg7)) := by
  dsimp only [V1, W1, hostOps0]
  after_results <;> rfl

/-- The head weights: (head, logit) flattened to one axis, then transposed. -/
theorem entry_wk (c : Dev nD) : @Eq (FVec Ideal S512x16384 .bf16) (V1 m ρ c main_v12) (truncf .bf16 (transpose S512x16384 [1, 0] (shapeCast S16384x512 (m ((c : Thread nD τ).loc main_arg8) : FVec Ideal S128x128x512 .f32) shapeCasts_S128x128x512_S16384x512) transposes_S16384x512_S512x16384_1_0) bitsLt_bf16_f32) := by
  dsimp only [V1, W1, hostOps0]
  after_results <;> rfl

/-- The head biases flattened to one row. -/
theorem entry_bk (c : Dev nD) : @Eq (FVec Ideal S1x16384 .f32) (V1 m ρ c main_v13) (shapeCast S1x16384 (m ((c : Thread nD τ).loc main_arg9) : FVec Ideal S128x128 .f32) shapeCasts_S128x128_S1x16384) := by
  dsimp only [V1, W1, hostOps0]
  after_results <;> rfl

/-! ## The same, read at an index -/

theorem obs_at (c : Dev nD) (b : Fin 16384) (k : Fin 512) :
    V1 m ρ c main_v0 (ix2 b k) = m ((c : Thread nD τ).loc main_arg0) (ix2 b k) :=
  congrFun (entry_obs m ρ c) (ix2 b k)

theorem act_at (c : Dev nD) (b : Fin 16384) (k : Fin 64) :
    V1 m ρ c main_v1 (ix2 b k) = m ((c : Thread nD τ).loc main_arg1) (ix2 b k) :=
  congrFun (entry_act m ρ c) (ix2 b k)

/-- The transposed observation weights at (input k, output j) are the weights at (j, k). -/
theorem wo_at (c : Dev nD) (j : Fin 256) (k : Fin 512) :
    V1 m ρ c main_v3 (ix2 k j) = m ((c : Thread nD τ).loc main_arg2) (ix2 j k) :=
  (congrFun (entry_wo m ρ c) (ix2 k j)).trans
    (transpose_ix2_apply (m ((c : Thread nD τ).loc main_arg2) : FVec Ideal S256x512 .f32) transposes_S256x512_S512x256_1_0 k j)

theorem bo_at (c : Dev nD) (j : Fin 256) :
    V1 m ρ c main_v4 (ix2 0 j) = m ((c : Thread nD τ).loc main_arg3) (ix1 j) :=
  (congrFun (entry_bo m ρ c) (ix2 0 j)).trans
    (shapeCast_a_1a_apply (m ((c : Thread nD τ).loc main_arg3) : FVec Ideal S256 .f32) shapeCasts_S256_S1x256 0 j)

theorem wa_at (c : Dev nD) (j : Fin 256) (k : Fin 64) :
    V1 m ρ c main_v6 (ix2 k j) = m ((c : Thread nD τ).loc main_arg4) (ix2 j k) :=
  (congrFun (entry_wa m ρ c) (ix2 k j)).trans
    (transpose_ix2_apply (m ((c : Thread nD τ).loc main_arg4) : FVec Ideal S256x64 .f32) transposes_S256x64_S64x256_1_0 k j)

theorem ba_at (c : Dev nD) (j : Fin 256) :
    V1 m ρ c main_v7 (ix2 0 j) = m ((c : Thread nD τ).loc main_arg5) (ix1 j) :=
  (congrFun (entry_ba m ρ c) (ix2 0 j)).trans
    (shapeCast_a_1a_apply (m ((c : Thread nD τ).loc main_arg5) : FVec Ideal S256 .f32) shapeCasts_S256_S1x256 0 j)

/-- Layer l's transposed weights at (input k, output j) are the weights at (l, j, k). -/
theorem wfc_at (c : Dev nD) (l : Fin 3) (j k : Fin 512) :
    V1 m ρ c main_v9 (ix3 l k j) = m ((c : Thread nD τ).loc main_arg6) (ix3 l j k) :=
  (congrFun (entry_wfc m ρ c) (ix3 l k j)).trans
    (transpose_ix3_021_apply (m ((c : Thread nD τ).loc main_arg6) : FVec Ideal S3x512x512 .f32) transposes_S3x512x512_S3x512x512_0_2_1 l k j)

theorem bfc_at (c : Dev nD) (l : Fin 3) (j : Fin 512) :
    V1 m ρ c main_arg7 (ix2 l j) = m ((c : Thread nD τ).loc main_arg7) (ix2 l j) :=
  congrFun (entry_bfc m ρ c) (ix2 l j)

/-- The flattened, transposed head weights at (feature f, column 128·h + o) are the weights at (h, o, f): the
    flattening keeps the row-major position. -/
theorem wk_at (c : Dev nD) (h o : Fin 128) (f : Fin 512) :
    V1 m ρ c main_v12 (ix2 f (Cert.Spec.flat h o)) = m ((c : Thread nD τ).loc main_arg8) (ix3 h o f) :=
  (congrFun (entry_wk m ρ c) (ix2 f (Cert.Spec.flat h o))).trans
    ((transpose_ix2_apply (shapeCast S16384x512 (m ((c : Thread nD τ).loc main_arg8) : FVec Ideal S128x128x512 .f32) shapeCasts_S128x128x512_S16384x512)
        transposes_S16384x512_S512x16384_1_0 f (Cert.Spec.flat h o)).trans
      (shapeCast_apply (s := S128x128x512) (t := S16384x512) (m ((c : Thread nD τ).loc main_arg8)) shapeCasts_S128x128x512_S16384x512
        (ix2 (Cert.Spec.flat h o) f) (ix3 h o f) (by
          show (S128x128x512.rowMajor (ix3 h o f)).val = (S16384x512.rowMajor (ix2 (Cert.Spec.flat h o) f)).val
          rw [Shape.rowMajor_val_three, Shape.rowMajor_val_two]
          show (h.val * 128 + o.val) * 512 + f.val = (128 * h.val + o.val) * 512 + f.val
          omega)))

/-- The flattened head biases at column 128·h + o are the biases at (h, o). -/
theorem bk_at (c : Dev nD) (h o : Fin 128) :
    V1 m ρ c main_v13 (ix2 0 (Cert.Spec.flat h o)) = m ((c : Thread nD τ).loc main_arg9) (ix2 h o) :=
  (congrFun (entry_bk m ρ c) (ix2 0 (Cert.Spec.flat h o))).trans
    (shapeCast_apply (s := S128x128) (t := S1x16384) (m ((c : Thread nD τ).loc main_arg9)) shapeCasts_S128x128_S1x16384
      (ix2 0 (Cert.Spec.flat h o)) (ix2 h o) (by
        show (S128x128.rowMajor (ix2 h o)).val = (S1x16384.rowMajor (ix2 0 (Cert.Spec.flat h o))).val
        rw [Shape.rowMajor_val_two, Shape.rowMajor_val_two]
        show h.val * 128 + o.val = 0 * 16384 + (128 * h.val + o.val)
        omega))

end Cert.KernelIdeal.Glue

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.AffineLayers.lean ====
/-
  The arithmetic of the projection body read at an index over the extended reals.

  One affine layer is a matrix product into a zero accumulator plus a bias row laid over the batch rows; the body
  applies the positive part (the maximum with the zero word) between layers. Its first stage lays two such affine
  maps side by side along the columns. Read at (row r, column j) the whole body is three affine layers, each on the
  positive part of its input, applied to the two projections of row r.
-/
import proofs.«408686_j62697932587080_3_alg».proof.Proof.Gen.KernelIdeal.Skeleton
import proofs.«408686_j62697932587080_3_alg».proof.Proof.Spec
import proofs.«408686_j62697932587080_3_alg».proof.Proof.LibContract
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.AffineLayers
open Cert.KernelIdeal Cert.KernelIdeal.Gen
open scoped BigOperators

/-- The body's positive part: the maximum with the zero word laid over the whole shape. -/
theorem relu_apply {s : Shape} (v : FVec Ideal s .f32) (i : s.Idx) :
    maximumf v (broadcast s (Scalar.ofBits (F := Ideal) .f32 0x00000000#32)) i = Cert.Spec.relu (v i) := by
  show max (v i) (Ideal.ofBits .f32 0x00000000#32) = max (v i) 0
  rw [Ideal.ofBits_zero_f32]

/-- A bias row [1, b], flattened to [b], given its unit axis back and laid over a rows: at (r, j) it is the row at j. -/
theorem bias_row_apply {a b : ℕ} (v : FVec Ideal ⟨2, ![1, b]⟩ .f32)
    (h1 : (⟨2, ![1, b]⟩ : Shape).ShapeCasts ⟨1, ![b]⟩) (h2 : (⟨1, ![b]⟩ : Shape).ShapeCasts ⟨2, ![1, b]⟩)
    (hb : (⟨2, ![1, b]⟩ : Shape).Broadcasts ⟨2, ![a, b]⟩) (r : Fin a) (j : Fin b) :
    broadcastTo ⟨2, ![a, b]⟩ (shapeCast ⟨2, ![1, b]⟩ (shapeCast ⟨1, ![b]⟩ v h1) h2) hb (ix2 r j) = v (ix2 (0 : Fin 1) j) :=
  (broadcastTo_1b_ab_apply _ hb r j).trans ((shapeCast_a_1a_apply _ h2 0 j).trans (shapeCast_1a_a_apply v h1 j))

/-- A bias row [1, b] laid over a rows: at (r, j) it is the row at j. -/
theorem bias_row_apply' {a b : ℕ} (v : FVec Ideal ⟨2, ![1, b]⟩ .f32)
    (h : (⟨2, ![1, b]⟩ : Shape).ShapeCasts ⟨2, ![1, b]⟩)
    (hb : (⟨2, ![1, b]⟩ : Shape).Broadcasts ⟨2, ![a, b]⟩) (r : Fin a) (j : Fin b) :
    broadcastTo ⟨2, ![a, b]⟩ (shapeCast ⟨2, ![1, b]⟩ v h) hb (ix2 r j) = v (ix2 (0 : Fin 1) j) :=
  (broadcastTo_1b_ab_apply _ hb r j).trans (congrFun (shapeCast_self v h) _)

/-! ## One of the three layers: a [256,512] input against one [1,512,512] slab of weights and one [1,512] bias row -/

/-- The layer's affine part as the body spells it. -/
def affine (x : FVec Ideal S256x512 .bf16) (w : FVec Ideal S1x512x512 .bf16) (b : FVec Ideal S1x512 .f32) :
    FVec Ideal S256x512 .f32 :=
  addf (matmul dot_S256x512_S512x512_S256x512_1_0_0_1_n_n none x (shapeCast S512x512 w shapeCasts_S1x512x512_S512x512)
      (constant S256x512 .f32 0x00000000#32))
    (broadcastTo S256x512 (shapeCast S1x512 (shapeCast S512 b shapeCasts_S1x512_S512) shapeCasts_S512_S1x512)
      broadcasts_S1x512_S256x512)

/-- The positive part, stored at the narrower format (the identity on the extended reals). -/
def act (y : FVec Ideal S256x512 .f32) : FVec Ideal S256x512 .bf16 :=
  truncf .bf16 (maximumf y (broadcast S256x512 (Scalar.ofBits (F := Ideal) .f32 0x00000000#32))) bitsLt_bf16_f32

theorem act_apply (y : FVec Ideal S256x512 .f32) (i : S256x512.Idx) : act y i = Cert.Spec.relu (y i) :=
  relu_apply y i

/-- The affine part at (r, j): row r of the input against column j of the slab (the slab holds the weight from input
    k to output j at (0, k, j)), plus the bias at j. -/
theorem affine_apply (x : FVec Ideal S256x512 .bf16) (w : FVec Ideal S1x512x512 .bf16) (b : FVec Ideal S1x512 .f32)
    (r : Fin 256) (j : Fin 512) :
    affine x w b (ix2 r j) = (∑ k : Fin 512, x (ix2 r k) * w (ix3 (0 : Fin 1) k j)) + b (ix2 (0 : Fin 1) j) := by
  show matmul dot_S256x512_S512x512_S256x512_1_0_0_1_n_n none x (shapeCast S512x512 w shapeCasts_S1x512x512_S512x512)
      (constant S256x512 .f32 0x00000000#32) (ix2 r j)
    + broadcastTo S256x512 (shapeCast S1x512 (shapeCast S512 b shapeCasts_S1x512_S512) shapeCasts_S512_S1x512)
      broadcasts_S1x512_S256x512 (ix2 r j) = _
  rw [Cert.LibContract.matmul_plain _ rfl rfl rfl rfl rfl rfl, bias_row_apply]
  exact congrArg (· + b (ix2 (0 : Fin 1) j))
    (Finset.sum_congr rfl fun k _ => congrArg (x (ix2 r k) * ·) (shapeCast_1ab_ab_apply w _ k j))

/-- A layer on an input whose row r is the positive part of y: the specification's layer of y. -/
theorem affine_layer (x : FVec Ideal S256x512 .bf16) (w : FVec Ideal S1x512x512 .bf16) (b : FVec Ideal S1x512 .f32)
    (r : Fin 256) (y : Fin 512 → EReal) (hx : ∀ k : Fin 512, x (ix2 r k) = Cert.Spec.relu (y k)) (j : Fin 512) :
    affine x w b (ix2 r j)
      = Cert.Spec.layer (fun j k => w (ix3 (0 : Fin 1) k j)) (fun j => b (ix2 (0 : Fin 1) j)) y j := by
  rw [affine_apply]
  exact congrArg (· + b (ix2 (0 : Fin 1) j))
    (Finset.sum_congr rfl fun k _ => congrArg (· * w (ix3 (0 : Fin 1) k j)) (hx k))

end Cert.KernelIdeal.AffineLayers

end
-- ==== Proof.ProjBody.lean ====
/-
  The projection body read at an index over the extended reals.

  The body's first stage lays two affine maps side by side along the columns: columns 0..255 are a [256,512] block of
  observations against a [512,256] matrix plus a bias row, columns 256..511 a [256,64] block of actions against a
  [64,256] matrix plus a bias row. Three affine layers follow, each on the positive part of its input. Read at
  (row r, column j), with every operand read through the coordinates the specification names, the body is the
  specification's feature function of the batch row that r stands for.
-/
import proofs.«408686_j62697932587080_3_alg».proof.Proof.AffineLayers

noncomputable section

open Idealize.ShloMosaic Idealize.ShloMosaic.ValueIdx

namespace Cert.KernelIdeal.ProjBody
open Cert.KernelIdeal Cert.KernelIdeal.Gen Cert.KernelIdeal.AffineLayers
open scoped BigOperators

/-! ## The two projections side by side -/

/-- The first stage as the body spells it. -/
def proj2 (x0 : FVec Ideal S256x512 .bf16) (x1 : FVec Ideal S256x64 .bf16) (x2 : FVec Ideal S512x256 .bf16)
    (x3 : FVec Ideal S1x256 .f32) (x4 : FVec Ideal S64x256 .bf16) (x5 : FVec Ideal S1x256 .f32) : FVec Ideal S256x512 .f32 :=
  concatenate S256x512 1
    [⟨S256x256, addf (matmul dot_S256x512_S512x256_S256x256_1_0_0_1_n_n none (shapeCast S256x512 x0 shapeCasts_S256x512_S256x512)
          (shapeCast S512x256 x2 shapeCasts_S512x256_S512x256) (constant S256x256 .f32 0x00000000#32))
        (broadcastTo S256x256 (shapeCast S1x256 x3 shapeCasts_S1x256_S1x256) broadcasts_S1x256_S256x256)⟩,
     ⟨S256x256, addf (matmul dot_S256x64_S64x256_S256x256_1_0_0_1_n_n none (shapeCast S256x64 x1 shapeCasts_S256x64_S256x64)
          (shapeCast S64x256 x4 shapeCasts_S64x256_S64x256) (constant S256x256 .f32 0x00000000#32))
        (broadcastTo S256x256 (shapeCast S1x256 x5 shapeCasts_S1x256_S1x256) broadcasts_S1x256_S256x256)⟩]
    concatenates_S256x256_S256x256_S256x512_d1

/-- The observation half at (r, j): row r of the block against column j of the matrix, plus the bias at j. -/
theorem obs_half_apply (x0 : FVec Ideal S256x512 .bf16) (x2 : FVec Ideal S512x256 .bf16) (x3 : FVec Ideal S1x256 .f32)
    (r : Fin 256) (j : Fin 256) :
    addf (matmul dot_S256x512_S512x256_S256x256_1_0_0_1_n_n none (shapeCast S256x512 x0 shapeCasts_S256x512_S256x512)
          (shapeCast S512x256 x2 shapeCasts_S512x256_S512x256) (constant S256x256 .f32 0x00000000#32))
        (broadcastTo S256x256 (shapeCast S1x256 x3 shapeCasts_S1x256_S1x256) broadcasts_S1x256_S256x256) (ix2 r j)
      = (∑ k : Fin 512, x0 (ix2 r k) * x2 (ix2 k j)) + x3 (ix2 (0 : Fin 1) j) := by
  show matmul dot_S256x512_S512x256_S256x256_1_0_0_1_n_n none (shapeCast S256x512 x0 shapeCasts_S256x512_S256x512)
          (shapeCast S512x256 x2 shapeCasts_S512x256_S512x256) (constant S256x256 .f32 0x00000000#32) (ix2 r j)
        + broadcastTo S256x256 (shapeCast S1x256 x3 shapeCasts_S1x256_S1x256) broadcasts_S1x256_S256x256 (ix2 r j) = _
  rw [Cert.LibContract.matmul_plain _ rfl rfl rfl rfl rfl rfl, bias_row_apply', shapeCast_self, shapeCast_self]

/-- The action half at (r, j): row r of the block against column j of the matrix, plus the bias at j. -/
theorem act_half_apply (x1 : FVec Ideal S256x64 .bf16) (x4 : FVec Ideal S64x256 .bf16) (x5 : FVec Ideal S1x256 .f32)
    (r : Fin 256) (j : Fin 256) :
    addf (matmul dot_S256x64_S64x256_S256x256_1_0_0_1_n_n none (shapeCast S256x64 x1 shapeCasts_S256x64_S256x64)
          (shapeCast S64x256 x4 shapeCasts_S64x256_S64x256) (constant S256x256 .f32 0x00000000#32))
        (broadcastTo S256x256 (shapeCast S1x256 x5 shapeCasts_S1x256_S1x256) broadcasts_S1x256_S256x256) (ix2 r j)
      = (∑ k : Fin 64, x1 (ix2 r k) * x4 (ix2 k j)) + x5 (ix2 (0 : Fin 1) j) := by
  show matmul dot_S256x64_S64x256_S256x256_1_0_0_1_n_n none (shapeCast S256x64 x1 shapeCasts_S256x64_S256x64)
          (shapeCast S64x256 x4 shapeCasts_S64x256_S64x256) (constant S256x256 .f32 0x00000000#32) (ix2 r j)
        + broadcastTo S256x256 (shapeCast S1x256 x5 shapeCasts_S1x256_S1x256) broadcasts_S1x256_S256x256 (ix2 r j) = _
  rw [Cert.LibContract.matmul_plain _ rfl rfl rfl rfl rfl rfl, bias_row_apply', shapeCast_self, shapeCast_self]

/-- The first stage at (r, j), a column of the left half: the observation projection at j. -/
theorem proj2_apply_left (x0 : FVec Ideal S256x512 .bf16) (x1 : FVec Ideal S256x64 .bf16) (x2 : FVec Ideal S512x256 .bf16)
    (x3 : FVec Ideal S1x256 .f32) (x4 : FVec Ideal S64x256 .bf16) (x5 : FVec Ideal S1x256 .f32)
    (r : Fin 256) (j : Fin 512) (h : j.val < 256) :
    proj2 x0 x1 x2 x3 x4 x5 (ix2 r j)
      = (∑ k : Fin 512, x0 (ix2 r k) * x2 (ix2 k (⟨j.val, h⟩ : Fin 256))) + x3 (ix2 (0 : Fin 1) (⟨j.val, h⟩ : Fin 256)) := by
  unfold proj2
  refine (concatenate_pair_apply_left (1 : Fin S256x512.rank) _ _ concatenates_S256x256_S256x256_S256x512_d1 (ix2 r j) rfl
    (ix2 r (⟨j.val, h⟩ : Fin 256)) (fun b => ?_)).trans (obs_half_apply x0 x2 x3 r ⟨j.val, h⟩)
  match b with
  | ⟨0, _⟩ => rfl
  | ⟨1, _⟩ => rfl

/-- The first stage at (r, j), a column of the right half: the action projection at j - 256. -/
theorem proj2_apply_right (x0 : FVec Ideal S256x512 .bf16) (x1 : FVec Ideal S256x64 .bf16) (x2 : FVec Ideal S512x256 .bf16)
    (x3 : FVec Ideal S1x256 .f32) (x4 : FVec Ideal S64x256 .bf16) (x5 : FVec Ideal S1x256 .f32)
    (r : Fin 256) (j : Fin 512) (h : ¬ j.val < 256) :
    proj2 x0 x1 x2 x3 x4 x5 (ix2 r j)
      = (∑ k : Fin 64, x1 (ix2 r k) * x4 (ix2 k (⟨j.val - 256, by omega⟩ : Fin 256)))
          + x5 (ix2 (0 : Fin 1) (⟨j.val - 256, by omega⟩ : Fin 256)) := by
  unfold proj2
  refine (concatenate_pair_apply_right (1 : Fin S256x512.rank) _ _ concatenates_S256x256_S256x256_S256x512_d1 (ix2 r j) rfl rfl
    (ix2 r (⟨j.val - 256, by omega⟩ : Fin 256)) (fun b hb => ?_) ?_).trans (act_half_apply x1 x4 x5 r ⟨j.val - 256, by omega⟩)
  · match b with
    | ⟨0, _⟩ => rfl
    | ⟨1, _⟩ => exact absurd rfl hb
  · show j.val - 256 + 256 = j.val
    omega

/-- The first stage at (r, j), with every operand read through the specification's coordinates, is the specification's
    pair of projections of the batch row. -/
theorem proj2_spec (x0 : FVec Ideal S256x512 .bf16) (x1 : FVec Ideal S256x64 .bf16) (x2 : FVec Ideal S512x256 .bf16)
    (x3 : FVec Ideal S1x256 .f32) (x4 : FVec Ideal S64x256 .bf16) (x5 : FVec Ideal S1x256 .f32)
    (obs : Fin 16384 → Fin 512 → EReal) (act : Fin 16384 → Fin 64 → EReal)
    (wo : Fin 256 → Fin 512 → EReal) (bo : Fin 256 → EReal) (wa : Fin 256 → Fin 64 → EReal) (ba : Fin 256 → EReal)
    (b : Fin 16384) (r : Fin 256)
    (h0 : ∀ k : Fin 512, x0 (ix2 r k) = obs b k) (h1 : ∀ k : Fin 64, x1 (ix2 r k) = act b k)
    (h2 : ∀ (j : Fin 256) (k : Fin 512), x2 (ix2 k j) = wo j k) (h3 : ∀ j : Fin 256, x3 (ix2 (0 : Fin 1) j) = bo j)
    (h4 : ∀ (j : Fin 256) (k : Fin 64), x4 (ix2 k j) = wa j k) (h5 : ∀ j : Fin 256, x5 (ix2 (0 : Fin 1) j) = ba j)
    (j : Fin 512) :
    proj2 x0 x1 x2 x3 x4 x5 (ix2 r j) = Cert.Spec.proj obs act wo bo wa ba b j := by
  unfold Cert.Spec.proj
  by_cases h : j.val < 256
  · rw [dif_pos h, proj2_apply_left x0 x1 x2 x3 x4 x5 r j h, h3]
    exact congrArg (· + bo ⟨j.val, h⟩) (Finset.sum_congr rfl fun k _ => by rw [h0, h2])
  · rw [dif_neg h, proj2_apply_right x0 x1 x2 x3 x4 x5 r j h, h5]
    exact congrArg (· + ba ⟨j.val - 256, by omega⟩) (Finset.sum_congr rfl fun k _ => by rw [h1, h4])

/-! ## The body as its stages -/

/-- The first payload is the first layer on the positive part of the two projections, positive part taken. -/
theorem pay2_eq (x0 : FVec Ideal S256x512 .bf16) (x1 : FVec Ideal S256x64 .bf16) (x2 : FVec Ideal S512x256 .bf16)
    (x3 : FVec Ideal S1x256 .f32) (x4 : FVec Ideal S64x256 .bf16) (x5 : FVec Ideal S1x256 .f32)
    (w0 : FVec Ideal S1x512x512 .bf16) (b0 : FVec Ideal S1x512 .f32) :
    k0_pay2 (F := Ideal) x0 x1 x2 x3 x4 x5 w0 b0 = AffineLayers.act (affine (AffineLayers.act (proj2 x0 x1 x2 x3 x4 x5)) w0 b0) := rfl

/-- The second payload is the third layer on the positive part of the second layer of its input. -/
theorem pay1_eq (v : FVec Ideal S256x512 .bf16) (w1 : FVec Ideal S1x512x512 .bf16) (b1 : FVec Ideal S1x512 .f32)
    (w2 : FVec Ideal S1x512x512 .bf16) (b2 : FVec Ideal S1x512 .f32) :
    k0_pay1 (F := Ideal) v w1 b1 w2 b2 = truncf .bf16 (affine (AffineLayers.act (affine v w1 b1)) w2 b2) bitsLt_bf16_f32 := rfl

/-- THE BODY AT (r, j): with every operand read through the specification's coordinates (the weight matrices are held
    transposed: the weight from input k to output j sits at (k, j)), the specification's features of batch row b. -/
theorem body_feat (x0 : FVec Ideal S256x512 .bf16) (x1 : FVec Ideal S256x64 .bf16) (x2 : FVec Ideal S512x256 .bf16)
    (x3 : FVec Ideal S1x256 .f32) (x4 : FVec Ideal S64x256 .bf16) (x5 : FVec Ideal S1x256 .f32)
    (w0 : FVec Ideal S1x512x512 .bf16) (b0 : FVec Ideal S1x512 .f32)
    (w1 : FVec Ideal S1x512x512 .bf16) (b1 : FVec Ideal S1x512 .f32)
    (w2 : FVec Ideal S1x512x512 .bf16) (b2 : FVec Ideal S1x512 .f32)
    (obs : Fin 16384 → Fin 512 → EReal) (act : Fin 16384 → Fin 64 → EReal)
    (wo : Fin 256 → Fin 512 → EReal) (bo : Fin 256 → EReal) (wa : Fin 256 → Fin 64 → EReal) (ba : Fin 256 → EReal)
    (wfc : Fin 3 → Fin 512 → Fin 512 → EReal) (bfc : Fin 3 → Fin 512 → EReal)
    (b : Fin 16384) (r : Fin 256)
    (h0 : ∀ k : Fin 512, x0 (ix2 r k) = obs b k) (h1 : ∀ k : Fin 64, x1 (ix2 r k) = act b k)
    (h2 : ∀ (j : Fin 256) (k : Fin 512), x2 (ix2 k j) = wo j k) (h3 : ∀ j : Fin 256, x3 (ix2 (0 : Fin 1) j) = bo j)
    (h4 : ∀ (j : Fin 256) (k : Fin 64), x4 (ix2 k j) = wa j k) (h5 : ∀ j : Fin 256, x5 (ix2 (0 : Fin 1) j) = ba j)
    (hw0 : ∀ j k : Fin 512, w0 (ix3 (0 : Fin 1) k j) = wfc 0 j k) (hb0 : ∀ j : Fin 512, b0 (ix2 (0 : Fin 1) j) = bfc 0 j)
    (hw1 : ∀ j k : Fin 512, w1 (ix3 (0 : Fin 1) k j) = wfc 1 j k) (hb1 : ∀ j : Fin 512, b1 (ix2 (0 : Fin 1) j) = bfc 1 j)
    (hw2 : ∀ j k : Fin 512, w2 (ix3 (0 : Fin 1) k j) = wfc 2 j k) (hb2 : ∀ j : Fin 512, b2 (ix2 (0 : Fin 1) j) = bfc 2 j)
    (j : Fin 512) :
    k0_pay1 (F := Ideal) (k0_pay2 (F := Ideal) x0 x1 x2 x3 x4 x5 w0 b0) w1 b1 w2 b2 (ix2 r j)
      = Cert.Spec.feat obs act wo bo wa ba wfc bfc b j := by
  have e0 : (fun j k => w0 (ix3 (0 : Fin 1) k j)) = wfc 0 := funext fun j => funext fun k => hw0 j k
  have e1 : (fun j k => w1 (ix3 (0 : Fin 1) k j)) = wfc 1 := funext fun j => funext fun k => hw1 j k
  have e2 : (fun j k => w2 (ix3 (0 : Fin 1) k j)) = wfc 2 := funext fun j => funext fun k => hw2 j k
  have f0 : (fun j => b0 (ix2 (0 : Fin 1) j)) = bfc 0 := funext hb0
  have f1 : (fun j => b1 (ix2 (0 : Fin 1) j)) = bfc 1 := funext hb1
  have f2 : (fun j => b2 (ix2 (0 : Fin 1) j)) = bfc 2 := funext hb2
  -- the first layer, on the positive part of the projections
  have l0 : ∀ k : Fin 512, affine (AffineLayers.act (proj2 x0 x1 x2 x3 x4 x5)) w0 b0 (ix2 r k)
      = Cert.Spec.layer (wfc 0) (bfc 0) (Cert.Spec.proj obs act wo bo wa ba b) k := fun k => by
    rw [affine_layer _ w0 b0 r (Cert.Spec.proj obs act wo bo wa ba b)
      (fun k' => (act_apply _ _).trans (congrArg Cert.Spec.relu
        (proj2_spec x0 x1 x2 x3 x4 x5 obs act wo bo wa ba b r h0 h1 h2 h3 h4 h5 k'))) k, e0, f0]
  -- the second layer, on the positive part of the first
  have l1 : ∀ k : Fin 512, affine (k0_pay2 (F := Ideal) x0 x1 x2 x3 x4 x5 w0 b0) w1 b1 (ix2 r k)
      = Cert.Spec.layer (wfc 1) (bfc 1) (Cert.Spec.layer (wfc 0) (bfc 0) (Cert.Spec.proj obs act wo bo wa ba b)) k := fun k => by
    rw [affine_layer _ w1 b1 r (Cert.Spec.layer (wfc 0) (bfc 0) (Cert.Spec.proj obs act wo bo wa ba b))
      (fun k' => by rw [pay2_eq, act_apply, l0 k']) k, e1, f1]
  -- the third layer, on the positive part of the second
  rw [pay1_eq]
  show affine (AffineLayers.act (affine (k0_pay2 (F := Ideal) x0 x1 x2 x3 x4 x5 w0 b0) w1 b1)) w2 b2 (ix2 r j) = _
  rw [affine_layer _ w2 b2 r
    (Cert.Spec.layer (wfc 1) (bfc 1) (Cert.Spec.layer (wfc 0) (bfc 0) (Cert.Spec.proj obs act wo bo wa ba b)))
    (fun k' => by rw [act_apply, l1 k']) j, e2, f2]
  rfl

end Cert.KernelIdeal.ProjBody

end
-- ==== Proof.BlockFeat.lean ====
/-
  What the projection body leaves in its output block, read at an index over the extended reals.

  The body stores once, over the whole [256,512] block, its arithmetic of twelve loads: six whole input blocks, and
  from the [3,512,512] weights and the [3,512] biases the slab and the row of each of the three layers. A load of
  layer l's slab at (0, k, j) is the weights at (l, k, j); a load of its bias row at (0, j) is the biases at (l, j).
  So with the eight input blocks read through the specification's coordinates the stored block at (r, j) is the
  specification's features of the batch row that r stands for.
-/
import proofs.«408686_j62697932587080_3_alg».proof.Proof.Gen.KernelIdeal.Frame
import proofs.«408686_j62697932587080_3_alg».proof.Proof.ProjBody
import Idealize.ShloMosaic.Lib.Pipeline.Value

noncomputable section

open Idealize.ShloMosaic Idealize.ShloMosaic.ValueIdx

namespace Cert.KernelIdeal.BlockFeat
open Cert.KernelIdeal Cert.KernelIdeal.Gen Cert.KernelIdeal.ProjBody

theorem hz2 : (![0, 0] : Fin 2 → Nat) = fun _ => 0 := funext fun a => by fin_cases a <;> rfl

/-- A loaded [1,512,512] slab whose rectangle starts at (l, 0, 0), at (0, k, j), is the weights at (l, k, j). -/
theorem slab_apply (x6 : FVec Ideal S3x512x512 .bf16) (off : Fin 3 → Nat)
    (inb : ∀ a, off a + S1x512x512.size a ≤ S3x512x512.size a) (l : Fin 3)
    (e0 : off 0 = l.val) (e1 : off 1 = 0) (e2 : off 2 = 0) (k j : Fin 512) :
    View.ld (Val := Elt Ideal) (e' := .bf16) x6 (Rect.unit (s := S3x512x512) off S1x512x512.size inb) (ix3 (0 : Fin 1) k j)
      = x6 (ix3 l k j) := by
  show x6 _ = x6 _
  refine congrArg x6 (funext fun a => Fin.ext ?_)
  match a with
  | ⟨0, _⟩ => show off 0 + 1 * 0 = l.val; omega
  | ⟨1, _⟩ => show off 1 + 1 * k.val = k.val; omega
  | ⟨2, _⟩ => show off 2 + 1 * j.val = j.val; omega

/-- A loaded [1,512] row whose rectangle starts at (l, 0), at (0, j), is the biases at (l, j). -/
theorem row_apply (x7 : FVec Ideal S3x512 .f32) (off : Fin 2 → Nat)
    (inb : ∀ a, off a + S1x512.size a ≤ S3x512.size a) (l : Fin 3)
    (e0 : off 0 = l.val) (e1 : off 1 = 0) (j : Fin 512) :
    View.ld (Val := Elt Ideal) (e' := .f32) x7 (Rect.unit (s := S3x512) off S1x512.size inb) (ix2 (0 : Fin 1) j)
      = x7 (ix2 l j) := by
  show x7 _ = x7 _
  refine congrArg x7 (funext fun a => Fin.ext ?_)
  match a with
  | ⟨0, _⟩ => show off 0 + 1 * 0 = l.val; omega
  | ⟨1, _⟩ => show off 1 + 1 * j.val = j.val; omega

/-- THE STORED BLOCK AT (r, j): with the eight input blocks read through the specification's coordinates, the
    specification's features of batch row b. -/
theorem block_feat (x0 : FVec Ideal S256x512 .bf16) (x1 : FVec Ideal S256x64 .bf16) (x2 : FVec Ideal S512x256 .bf16)
    (x3 : FVec Ideal S1x256 .f32) (x4 : FVec Ideal S64x256 .bf16) (x5 : FVec Ideal S1x256 .f32)
    (x6 : FVec Ideal S3x512x512 .bf16) (x7 : FVec Ideal S3x512 .f32)
    (obs : Fin 16384 → Fin 512 → EReal) (act : Fin 16384 → Fin 64 → EReal)
    (wo : Fin 256 → Fin 512 → EReal) (bo : Fin 256 → EReal) (wa : Fin 256 → Fin 64 → EReal) (ba : Fin 256 → EReal)
    (wfc : Fin 3 → Fin 512 → Fin 512 → EReal) (bfc : Fin 3 → Fin 512 → EReal)
    (b : Fin 16384) (r : Fin 256)
    (h0 : ∀ k : Fin 512, x0 (ix2 r k) = obs b k) (h1 : ∀ k : Fin 64, x1 (ix2 r k) = act b k)
    (h2 : ∀ (j : Fin 256) (k : Fin 512), x2 (ix2 k j) = wo j k) (h3 : ∀ j : Fin 256, x3 (ix2 (0 : Fin 1) j) = bo j)
    (h4 : ∀ (j : Fin 256) (k : Fin 64), x4 (ix2 k j) = wa j k) (h5 : ∀ j : Fin 256, x5 (ix2 (0 : Fin 1) j) = ba j)
    (h6 : ∀ (l : Fin 3) (j k : Fin 512), x6 (ix3 l k j) = wfc l j k) (h7 : ∀ (l : Fin 3) (j : Fin 512), x7 (ix2 l j) = bfc l j)
    (j : Fin 512) :
    out0_8 (F := Ideal) x0 x1 x2 x3 x4 x5 x6 x7 (ix2 r j) = Cert.Spec.feat obs act wo bo wa ba wfc bfc b j := by
  unfold out0_8
  rw [View.canon_unit_zero hz2]
  have g0 : ∀ k : Fin 512, View.ld (Val := Elt Ideal) (e' := .bf16) x0 r0_0 (ix2 r k) = obs b k := fun k =>
    (congrFun (View.ld_unit_zero (Val := Elt Ideal) (S := S256x512) (e := .bf16) hz2 inb_S256x512_S256x512_0_0 x0) (ix2 r k)).trans (h0 k)
  have g1 : ∀ k : Fin 64, View.ld (Val := Elt Ideal) (e' := .bf16) x1 r0_1 (ix2 r k) = act b k := fun k =>
    (congrFun (View.ld_unit_zero (Val := Elt Ideal) (S := S256x64) (e := .bf16) hz2 inb_S256x64_S256x64_0_0 x1) (ix2 r k)).trans (h1 k)
  have g2 : ∀ (j : Fin 256) (k : Fin 512), View.ld (Val := Elt Ideal) (e' := .bf16) x2 r0_2 (ix2 k j) = wo j k := fun j k =>
    (congrFun (View.ld_unit_zero (Val := Elt Ideal) (S := S512x256) (e := .bf16) hz2 inb_S512x256_S512x256_0_0 x2) (ix2 k j)).trans (h2 j k)
  have g3 : ∀ j : Fin 256, View.ld (Val := Elt Ideal) (e' := .f32) x3 r0_3 (ix2 (0 : Fin 1) j) = bo j := fun j =>
    (congrFun (View.ld_unit_zero (Val := Elt Ideal) (S := S1x256) (e := .f32) hz2 inb_S1x256_S1x256_0_0 x3) (ix2 (0 : Fin 1) j)).trans (h3 j)
  have g4 : ∀ (j : Fin 256) (k : Fin 64), View.ld (Val := Elt Ideal) (e' := .bf16) x4 r0_4 (ix2 k j) = wa j k := fun j k =>
    (congrFun (View.ld_unit_zero (Val := Elt Ideal) (S := S64x256) (e := .bf16) hz2 inb_S64x256_S64x256_0_0 x4) (ix2 k j)).trans (h4 j k)
  have g5 : ∀ j : Fin 256, View.ld (Val := Elt Ideal) (e' := .f32) x5 r0_3 (ix2 (0 : Fin 1) j) = ba j := fun j =>
    (congrFun (View.ld_unit_zero (Val := Elt Ideal) (S := S1x256) (e := .f32) hz2 inb_S1x256_S1x256_0_0 x5) (ix2 (0 : Fin 1) j)).trans (h5 j)
  have gw0 : ∀ j k : Fin 512, View.ld (Val := Elt Ideal) (e' := .bf16) x6 r0_5 (ix3 (0 : Fin 1) k j) = wfc 0 j k := fun j k =>
    (slab_apply x6 ![0, 0, 0] inb_S3x512x512_S1x512x512_0_0_0 0 rfl rfl rfl k j).trans (h6 0 j k)
  have gb0 : ∀ j : Fin 512, View.ld (Val := Elt Ideal) (e' := .f32) x7 r0_6 (ix2 (0 : Fin 1) j) = bfc 0 j := fun j =>
    (row_apply x7 ![0, 0] inb_S3x512_S1x512_0_0 0 rfl rfl j).trans (h7 0 j)
  have gw1 : ∀ j k : Fin 512, View.ld (Val := Elt Ideal) (e' := .bf16) x6 r0_7 (ix3 (0 : Fin 1) k j) = wfc 1 j k := fun j k =>
    (slab_apply x6 ![1, 0, 0] inb_S3x512x512_S1x512x512_1_0_0 1 rfl rfl rfl k j).trans (h6 1 j k)
  have gb1 : ∀ j : Fin 512, View.ld (Val := Elt Ideal) (e' := .f32) x7 r0_8 (ix2 (0 : Fin 1) j) = bfc 1 j := fun j =>
    (row_apply x7 ![1, 0] inb_S3x512_S1x512_1_0 1 rfl rfl j).trans (h7 1 j)
  have gw2 : ∀ j k : Fin 512, View.ld (Val := Elt Ideal) (e' := .bf16) x6 r0_9 (ix3 (0 : Fin 1) k j) = wfc 2 j k := fun j k =>
    (slab_apply x6 ![2, 0, 0] inb_S3x512x512_S1x512x512_2_0_0 2 rfl rfl rfl k j).trans (h6 2 j k)
  have gb2 : ∀ j : Fin 512, View.ld (Val := Elt Ideal) (e' := .f32) x7 r0_10 (ix2 (0 : Fin 1) j) = bfc 2 j := fun j =>
    (row_apply x7 ![2, 0] inb_S3x512_S1x512_2_0 2 rfl rfl j).trans (h7 2 j)
  exact body_feat (View.ld (Val := Elt Ideal) (e' := .bf16) x0 r0_0) (View.ld (Val := Elt Ideal) (e' := .bf16) x1 r0_1)
    (View.ld (Val := Elt Ideal) (e' := .bf16) x2 r0_2) (View.ld (Val := Elt Ideal) (e' := .f32) x3 r0_3)
    (View.ld (Val := Elt Ideal) (e' := .bf16) x4 r0_4) (View.ld (Val := Elt Ideal) (e' := .f32) x5 r0_3)
    (View.ld (Val := Elt Ideal) (e' := .bf16) x6 r0_5) (View.ld (Val := Elt Ideal) (e' := .f32) x7 r0_6)
    (View.ld (Val := Elt Ideal) (e' := .bf16) x6 r0_7) (View.ld (Val := Elt Ideal) (e' := .f32) x7 r0_8)
    (View.ld (Val := Elt Ideal) (e' := .bf16) x6 r0_9) (View.ld (Val := Elt Ideal) (e' := .f32) x7 r0_10)
    obs act wo bo wa ba wfc bfc b r g0 g1 g2 g3 g4 g5 gw0 gb0 gw1 gb1 gw2 gb2 j

end Cert.KernelIdeal.BlockFeat

end
-- ==== Proof.FeatValue.lean ====
/-
  The array the projection kernel leaves, read at an index over the extended reals.

  Grid point t of the 64 works on batch rows 256 t .. 256 t + 255: its observation, action and output blocks are those
  rows of their arrays, and its six parameter blocks are the whole parameter arrays. So what point t writes back is
  rows 256 t .. 256 t + 255 of ONE function of the array index, the specification's features with every operand read
  as the kernel holds it (the weight matrices transposed). Row b lies in the block of point b / 256, so the blocks
  cover the array, and the array ends holding that function.
-/
import proofs.«408686_j62697932587080_3_alg».proof.Proof.Gen.KernelIdeal.Frame
import proofs.«408686_j62697932587080_3_alg».proof.Proof.Spec
import proofs.«408686_j62697932587080_3_alg».proof.Proof.BlockFeat
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem

namespace Cert.KernelIdeal.FeatValue
open Cert.KernelIdeal Cert.KernelIdeal.Gen

variable (V : (c : Dev nD) → (b : Ref sig .tc) → Buf (Elt Ideal) ((c : Thread nD τ).loc b))

/-- The features of every batch row from the region's input arrays, as one function of the output array's index. -/
def featArr (c : Dev nD) : S16384x512.Idx → EReal := fun i =>
  Cert.Spec.feat (fun b k => V c main_v0 (ix2 b k)) (fun b k => V c main_v1 (ix2 b k))
    (fun j k => V c main_v3 (ix2 k j)) (fun j => V c main_v4 (ix2 0 j))
    (fun j k => V c main_v6 (ix2 k j)) (fun j => V c main_v7 (ix2 0 j))
    (fun l j k => V c main_v9 (ix3 l k j)) (fun l j => V c main_arg7 (ix2 l j)) (i 0) (i 1)

/-- The block index of every window at every point, decided over the grid: the observation, action and output
    windows move with the point along the rows; the six parameter windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- A row of a point's block is a batch row. -/
theorem row_lt (t : Fin cfg0.N) (r : Fin 256) : 256 * t.val + r.val < 16384 := by
  have hN : cfg0.N = 64 := N_0
  have ht := t.isLt
  have hr := r.isLt
  omega

/-! ## Each input block is its array read where the block sits -/

/-- The observation block at point t: rows 256 t .. 256 t + 255 of the observations. -/
theorem blk0_apply (c : Dev nD) (t : Fin cfg0.N) (r : Fin 256) (k : Fin 512) :
    (iblk0 V c 0 t : FVec Ideal S256x512 .bf16) (ix2 r k) = V c main_v0 (ix2 (⟨256 * t.val + r.val, row_lt t r⟩ : Fin 16384) k) := by
  obtain ⟨e0, e1, -⟩ := idx_facts t
  show V c main_v0 (((cfg0.win 0).blk t).view.emb (ix2 r k)) = _
  refine congrArg (V c main_v0) (funext fun a => Fin.ext ?_)
  match a with
  | ⟨0, _⟩ => show win0_0.index t (0 : Fin 2) * 256 + 1 * r.val = 256 * t.val + r.val; rw [e0]; omega
  | ⟨1, _⟩ => show win0_0.index t (1 : Fin 2) * 512 + 1 * k.val = k.val; rw [e1]; omega

/-- The action block at point t: rows 256 t .. 256 t + 255 of the actions. -/
theorem blk1_apply (c : Dev nD) (t : Fin cfg0.N) (r : Fin 256) (k : Fin 64) :
    (iblk0 V c 1 t : FVec Ideal S256x64 .bf16) (ix2 r k) = V c main_v1 (ix2 (⟨256 * t.val + r.val, row_lt t r⟩ : Fin 16384) k) := by
  obtain ⟨-, -, e0, e1, -⟩ := idx_facts t
  show V c main_v1 (((cfg0.win 1).blk t).view.emb (ix2 r k)) = _
  refine congrArg (V c main_v1) (funext fun a => Fin.ext ?_)
  match a with
  | ⟨0, _⟩ => show win0_1.index t (0 : Fin 2) * 256 + 1 * r.val = 256 * t.val + r.val; rw [e0]; omega
  | ⟨1, _⟩ => show win0_1.index t (1 : Fin 2) * 64 + 1 * k.val = k.val; rw [e1]; omega

/-- The observation weights' block at every point: the whole [512,256] array. -/
theorem blk2_apply (c : Dev nD) (t : Fin cfg0.N) (k : Fin 512) (j : Fin 256) :
    (iblk0 V c 2 t : FVec Ideal S512x256 .bf16) (ix2 k j) = V c main_v3 (ix2 k j) := by
  obtain ⟨-, -, -, -, e0, e1, -⟩ := idx_facts t
  show V c main_v3 (((cfg0.win 2).blk t).view.emb (ix2 k j)) = _
  refine congrArg (V c main_v3) (funext fun a => Fin.ext ?_)
  match a with
  | ⟨0, _⟩ => show win0_2.index t (0 : Fin 2) * 512 + 1 * k.val = k.val; rw [e0]; omega
  | ⟨1, _⟩ => show win0_2.index t (1 : Fin 2) * 256 + 1 * j.val = j.val; rw [e1]; omega

/-- The observation bias's block at every point: the whole [1,256] array. -/
theorem blk3_apply (c : Dev nD) (t : Fin cfg0.N) (u : Fin 1) (j : Fin 256) :
    (iblk0 V c 3 t : FVec Ideal S1x256 .f32) (ix2 u j) = V c main_v4 (ix2 u j) := by
  obtain ⟨-, -, -, -, -, -, e0, e1, -⟩ := idx_facts t
  show V c main_v4 (((cfg0.win 3).blk t).view.emb (ix2 u j)) = _
  refine congrArg (V c main_v4) (funext fun a => Fin.ext ?_)
  match a with
  | ⟨0, _⟩ => show win0_3.index t (0 : Fin 2) * 1 + 1 * u.val = u.val; rw [e0]; omega
  | ⟨1, _⟩ => show win0_3.index t (1 : Fin 2) * 256 + 1 * j.val = j.val; rw [e1]; omega

/-- The action weights' block at every point: the whole [64,256] array. -/
theorem blk4_apply (c : Dev nD) (t : Fin cfg0.N) (k : Fin 64) (j : Fin 256) :
    (iblk0 V c 4 t : FVec Ideal S64x256 .bf16) (ix2 k j) = V c main_v6 (ix2 k j) := by
  obtain ⟨-, -, -, -, -, -, -, -, e0, e1, -⟩ := idx_facts t
  show V c main_v6 (((cfg0.win 4).blk t).view.emb (ix2 k j)) = _
  refine congrArg (V c main_v6) (funext fun a => Fin.ext ?_)
  match a with
  | ⟨0, _⟩ => show win0_4.index t (0 : Fin 2) * 64 + 1 * k.val = k.val; rw [e0]; omega
  | ⟨1, _⟩ => show win0_4.index t (1 : Fin 2) * 256 + 1 * j.val = j.val; rw [e1]; omega

/-- The action bias's block at every point: the whole [1,256] array. -/
theorem blk5_apply (c : Dev nD) (t : Fin cfg0.N) (u : Fin 1) (j : Fin 256) :
    (iblk0 V c 5 t : FVec Ideal S1x256 .f32) (ix2 u j) = V c main_v7 (ix2 u j) := by
  obtain ⟨-, -, -, -, -, -, -, -, -, -, e0, e1, -⟩ := idx_facts t
  show V c main_v7 (((cfg0.win 5).blk t).view.emb (ix2 u j)) = _
  refine congrArg (V c main_v7) (funext fun a => Fin.ext ?_)
  match a with
  | ⟨0, _⟩ => show win0_5.index t (0 : Fin 2) * 1 + 1 * u.val = u.val; rw [e0]; omega
  | ⟨1, _⟩ => show win0_5.index t (1 : Fin 2) * 256 + 1 * j.val = j.val; rw [e1]; omega

/-- The layer weights' block at every point: the whole [3,512,512] array. -/
theorem blk6_apply (c : Dev nD) (t : Fin cfg0.N) (l : Fin 3) (k j : Fin 512) :
    (iblk0 V c 6 t : FVec Ideal S3x512x512 .bf16) (ix3 l k j) = V c main_v9 (ix3 l k j) := by
  obtain ⟨-, -, -, -, -, -, -, -, -, -, -, -, e0, e1, e2, -⟩ := idx_facts t
  show V c main_v9 (((cfg0.win 6).blk t).view.emb (ix3 l k j)) = _
  refine congrArg (V c main_v9) (funext fun a => Fin.ext ?_)
  match a with
  | ⟨0, _⟩ => show win0_6.index t (0 : Fin 3) * 3 + 1 * l.val = l.val; rw [e0]; omega
  | ⟨1, _⟩ => show win0_6.index t (1 : Fin 3) * 512 + 1 * k.val = k.val; rw [e1]; omega
  | ⟨2, _⟩ => show win0_6.index t (2 : Fin 3) * 512 + 1 * j.val = j.val; rw [e2]; omega

/-- The layer biases' block at every point: the whole [3,512] array. -/
theorem blk7_apply (c : Dev nD) (t : Fin cfg0.N) (l : Fin 3) (j : Fin 512) :
    (iblk0 V c 7 t : FVec Ideal S3x512 .f32) (ix2 l j) = V c main_arg7 (ix2 l j) := by
  obtain ⟨-, -, -, -, -, -, -, -, -, -, -, -, -, -, -, e0, e1, -⟩ := idx_facts t
  show V c main_arg7 (((cfg0.win 7).blk t).view.emb (ix2 l j)) = _
  refine congrArg (V c main_arg7) (funext fun a => Fin.ext ?_)
  match a with
  | ⟨0, _⟩ => show win0_7.index t (0 : Fin 2) * 3 + 1 * l.val = l.val; rw [e0]; omega
  | ⟨1, _⟩ => show win0_7.index t (1 : Fin 2) * 512 + 1 * j.val = j.val; rw [e1]; omega

/-- Where the output block of point t sits: its (r, j) is the array's (256 t + r, j). -/
theorem blk8_emb (t : Fin cfg0.N) (r : Fin 256) (j : Fin 512) :
    ((cfg0.win 8).blk t).view.emb (ix2 r j) = (ix2 (⟨256 * t.val + r.val, row_lt t r⟩ : Fin 16384) j : S16384x512.Idx) := by
  obtain ⟨-, -, -, -, -, -, -, -, -, -, -, -, -, -, -, -, -, e0, e1⟩ := idx_facts t
  refine funext fun a => Fin.ext ?_
  match a with
  | ⟨0, _⟩ => show win0_8.index t (0 : Fin 2) * 256 + 1 * r.val = 256 * t.val + r.val; rw [e0]; omega
  | ⟨1, _⟩ => show win0_8.index t (1 : Fin 2) * 512 + 1 * j.val = j.val; rw [e1]; omega

/-! ## What a point writes back, the cover, the array -/

/-- WHAT POINT t WRITES BACK is block t of the feature function. -/
theorem flushed_feat (c : Dev nD) (t : Fin cfg0.N) :
    (dat0 (F := Ideal) V c).flushed 8 t = ((cfg0.win 8).blk t).view.read (Elt Ideal) (featArr V c) := by
  show (cfg0.win 8).cut (grid0.coords t) ((dat0 (F := Ideal) V c).after 8 t) = _
  rw [after0_8]
  funext y
  obtain ⟨r, j, rfl⟩ : ∃ (r : Fin 256) (j : Fin 512), y = ix2 r j := ⟨y 0, y 1, eq_ix2 (n0 := 256) (n1 := 512) y⟩
  show out0_8 (F := Ideal) (iblk0 V c 0 t) (iblk0 V c 1 t) (iblk0 V c 2 t) (iblk0 V c 3 t) (iblk0 V c 4 t) (iblk0 V c 5 t)
      (iblk0 V c 6 t) (iblk0 V c 7 t) (ix2 r j) = featArr V c (((cfg0.win 8).blk t).view.emb (ix2 r j))
  rw [blk8_emb t r j]
  exact BlockFeat.block_feat (iblk0 V c 0 t) (iblk0 V c 1 t) (iblk0 V c 2 t) (iblk0 V c 3 t) (iblk0 V c 4 t) (iblk0 V c 5 t)
    (iblk0 V c 6 t) (iblk0 V c 7 t)
    (fun b k => V c main_v0 (ix2 b k)) (fun b k => V c main_v1 (ix2 b k))
    (fun j k => V c main_v3 (ix2 k j)) (fun j => V c main_v4 (ix2 0 j))
    (fun j k => V c main_v6 (ix2 k j)) (fun j => V c main_v7 (ix2 0 j))
    (fun l j k => V c main_v9 (ix3 l k j)) (fun l j => V c main_arg7 (ix2 l j))
    ⟨256 * t.val + r.val, row_lt t r⟩ r
    (fun k => blk0_apply V c t r k) (fun k => blk1_apply V c t r k)
    (fun j k => blk2_apply V c t k j) (fun j => blk3_apply V c t 0 j)
    (fun j k => blk4_apply V c t k j) (fun j => blk5_apply V c t 0 j)
    (fun l j k => blk6_apply V c t l k j) (fun l j => blk7_apply V c t l j) j

/-- An index of the array is in point t's block iff each coordinate is in the block's range on its axis. -/
theorem mem_blk8 (t : Fin cfg0.N) (i : S16384x512.Idx) :
    i ∈ ((cfg0.win 8).blk t).view.set
      ↔ ∀ a : Fin 2, win0_8.index t a * S256x512.size a ≤ (i a).val ∧ (i a).val < win0_8.index t a * S256x512.size a + S256x512.size a := by
  show i ∈ ((View.whole main_v14).slice (win0_8.rect t)).set ↔ _
  rw [View.set_slice_whole, Rect.mem_set_unit]
  exact Iff.rfl

/-- Row b of the array lies in the block of point b / 256. -/
theorem cover8 (i : S16384x512.Idx) : ∃ t : Fin cfg0.N, (cfg0.win 8).flush t = true ∧ i ∈ ((cfg0.win 8).blk t).view.set := by
  have hN : cfg0.N = 64 := N_0
  have hi0 : (i 0).val < 16384 := (i 0).isLt
  have hi1 : (i 1).val < 512 := (i 1).isLt
  refine ⟨⟨(i 0).val / 256, by omega⟩, flush0_8 _, ?_⟩
  obtain ⟨-, -, -, -, -, -, -, -, -, -, -, -, -, -, -, -, -, e0, e1⟩ := idx_facts ⟨(i 0).val / 256, by omega⟩
  rw [mem_blk8]
  intro a
  match a with
  | ⟨0, _⟩ =>
    show win0_8.index ⟨(i 0).val / 256, _⟩ (0 : Fin 2) * 256 ≤ (i 0).val ∧ (i 0).val < win0_8.index ⟨(i 0).val / 256, _⟩ (0 : Fin 2) * 256 + 256
    rw [e0]
    show (i 0).val / 256 * 256 ≤ (i 0).val ∧ (i 0).val < (i 0).val / 256 * 256 + 256
    omega
  | ⟨1, _⟩ =>
    show win0_8.index ⟨(i 0).val / 256, _⟩ (1 : Fin 2) * 512 ≤ (i 1).val ∧ (i 1).val < win0_8.index ⟨(i 0).val / 256, _⟩ (1 : Fin 2) * 512 + 512
    rw [e1]
    omega

/-- THE ARRAY after the region's write-backs is the feature function. -/
theorem final (c : Dev nD) : (dat0 (F := Ideal) V c).arrAt 8 cfg0.N = featArr V c :=
  (dat0 (F := Ideal) V c).arrAt_eq_of_cover 8 (featArr V c) (fun t _ => flushed_feat V c t) (cover8)

/-- After the region's write-backs the array holds, at (batch row b, column j), the specification's features of row b
    from the region's input arrays read as the kernel holds them. -/
theorem feat_value (c : Dev nD) (b : Fin 16384) (j : Fin 512) :
    (dat0 (F := Ideal) V c).arrAt 8 cfg0.N (ix2 b j)
      = Cert.Spec.feat (fun b k => V c main_v0 (ix2 b k)) (fun b k => V c main_v1 (ix2 b k))
          (fun j k => V c main_v3 (ix2 k j)) (fun j => V c main_v4 (ix2 0 j))
          (fun j k => V c main_v6 (ix2 k j)) (fun j => V c main_v7 (ix2 0 j))
          (fun l j k => V c main_v9 (ix3 l k j)) (fun l j => V c main_arg7 (ix2 l j)) b j :=
  congrFun (final V c) (ix2 b j)

end Cert.KernelIdeal.FeatValue

end
-- ==== Proof.HeadsChunk.lean ====
/-
  One chunk of the heads kernel, read at an index.

  A chunk takes the 256 feature rows x, a [512, 1024] slab w of the head weights (eight heads of 128 logits, flattened)
  and the matching [1, 1024] slab of biases. It forms the [256, 1024] logits x·w + bias, regroups the 1024 columns as
  (head hh, logit oo) with column 128·hh + oo, and applies the softmax along oo: the exponential of a logit less the
  head's largest logit, over the sum of those exponentials. The four payloads the kernel stores are this one function
  of (x, slab of w, slab of bias).
-/
import proofs.«408686_j62697932587080_3_alg».proof.Proof.Gen.KernelIdeal.Skeleton
import proofs.«408686_j62697932587080_3_alg».proof.Proof.Spec
import proofs.«408686_j62697932587080_3_alg».proof.Proof.LibContract
import Idealize.ShloMosaic.Lib.ValueIdx
import Idealize.ShloMosaic.Lib.Pipeline.Value
import Idealize.ShloMosaic.PureOps.Ideal.Laws

noncomputable section

namespace Cert.KernelIdeal.HeadsChunk

open Idealize.ShloMosaic Idealize.ShloMosaic.ValueIdx
open Cert.KernelIdeal Cert.KernelIdeal.Gen

/-- The chunk's logits: the product into zeros plus the bias row, its 1024 columns regrouped as 8 heads of 128. -/
def logits (x : FVec Ideal S256x512 .bf16) (w : Vec Ideal S512x1024 .bf16) (bias : Vec Ideal S1x1024 .f32) :
    FVec Ideal S256x8x128 .f32 :=
  shapeCast S256x8x128
    (addf (matmul dot_S256x512_S512x1024_S256x1024_1_0_0_1_n_n none x
        (shapeCast S512x1024 w Facts₀.shapeCasts_S512x1024_S512x1024 : FVec Ideal S512x1024 .bf16)
        (constant S256x1024 .f32 0x00000000#32 : FVec Ideal S256x1024 .f32) : FVec Ideal S256x1024 .f32)
      (broadcastTo S256x1024 (shapeCast S1x1024 bias Facts₀.shapeCasts_S1x1024_S1x1024 : FVec Ideal S1x1024 .f32)
        Facts₀.broadcasts_S1x1024_S256x1024 : FVec Ideal S256x1024 .f32))
    Facts₀.shapeCasts_S256x1024_S256x8x128

/-- Each head's largest logit (the fold of max from -∞ along the last axis), repeated along that axis. -/
def headMax (l : FVec Ideal S256x8x128 .f32) : FVec Ideal S256x8x128 .f32 :=
  broadcastTo S256x8x128
    (shapeCast S256x8x1 (multiReduction .maximumf [2] S256x8 l 0xFF800000#32 Facts₀.reduces_S256x8x128_S256x8 (.inl rfl) rfl)
      Facts₀.shapeCasts_S256x8_S256x8x1)
    Facts₀.broadcasts_S256x8x1_S256x8x128

/-- Each head's sum along the last axis, repeated along that axis. -/
def headSum (e : FVec Ideal S256x8x128 .f32) : FVec Ideal S256x8x128 .f32 :=
  broadcastTo S256x8x128
    (shapeCast S256x8x1 (multiReduction .add [2] S256x8 e 0x00000000#32 Facts₀.reduces_S256x8x128_S256x8 (.inl rfl) rfl)
      Facts₀.shapeCasts_S256x8_S256x8x1)
    Facts₀.broadcasts_S256x8x1_S256x8x128

/-- The softmax along the last axis. -/
def soft (l : FVec Ideal S256x8x128 .f32) : FVec Ideal S256x8x128 .f32 :=
  divf (exp (subf l (headMax l))) (headSum (exp (subf l (headMax l))))

/-- One chunk: the softmax of its logits. -/
def chunk (x : FVec Ideal S256x512 .bf16) (w : Vec Ideal S512x1024 .bf16) (bias : Vec Ideal S1x1024 .f32) :
    FVec Ideal S256x8x128 .f32 := soft (logits x w bias)

/-- Each of the four stored payloads is the chunk function of its loads, by unfolding; the first shape cast of x is
    the identity. -/
theorem pay2_eq (v0 : Vec Ideal S256x512 .bf16) (v2 : Vec Ideal S512x1024 .bf16) (v4 : Vec Ideal S1x1024 .f32) :
    k1_pay2 v0 v2 v4 = chunk (k1_pay1 v0) v2 v4 := rfl
theorem pay3_eq (v0 : Vec Ideal S256x512 .bf16) (v2 : Vec Ideal S512x1024 .bf16) (v4 : Vec Ideal S1x1024 .f32) :
    k1_pay3 v0 v2 v4 = chunk (k1_pay1 v0) v2 v4 := rfl
theorem pay4_eq (v1 : FVec Ideal S256x512 .bf16) (v2 : Vec Ideal S512x1024 .bf16) (v4 : Vec Ideal S1x1024 .f32) :
    k1_pay4 v1 v2 v4 = chunk v1 v2 v4 := rfl
theorem pay5_eq (v1 : FVec Ideal S256x512 .bf16) (v2 : Vec Ideal S512x1024 .bf16) (v4 : Vec Ideal S1x1024 .f32) :
    k1_pay5 v1 v2 v4 = chunk v1 v2 v4 := rfl
theorem pay1_eq (v0 : Vec Ideal S256x512 .bf16) : k1_pay1 v0 = v0 := shapeCast_self _ _

open scoped BigOperators

/-- The flat column of (head hh, logit oo) among a chunk's 1024. -/
def col (hh : Fin 8) (oo : Fin 128) : Fin 1024 := ⟨128 * hh.val + oo.val, by have := hh.isLt; have := oo.isLt; omega⟩

/-- A logit at (r, hh, oo): row r of x against column 128·hh + oo of w, plus the bias there. The regrouping keeps the
    row-major position, 1024·r + (128·hh + oo) = 128·(8·r + hh) + oo; the product into zeros is the plain sum; the
    bias row is repeated down the rows. -/
theorem logits_apply (x : FVec Ideal S256x512 .bf16) (w : Vec Ideal S512x1024 .bf16) (bias : Vec Ideal S1x1024 .f32)
    (r : Fin 256) (hh : Fin 8) (oo : Fin 128) :
    logits x w bias (ix3 r hh oo)
      = (∑ f : Fin 512, x (ix2 r f) * w (ix2 f (col hh oo))) + bias (ix2 0 (col hh oo)) := by
  unfold logits
  refine (shapeCast_apply _ _ (ix3 r hh oo) (ix2 r (col hh oo)) ?_).trans ?_
  · rw [Shape.rowMajor_val_two, Shape.rowMajor_val_three]
    show r.val * 1024 + (128 * hh.val + oo.val) = (r.val * 8 + hh.val) * 128 + oo.val
    omega
  · rw [addf_apply, Cert.LibContract.matmul_plain _ rfl rfl rfl rfl rfl rfl, shapeCast_self]
    congr 1
    refine (broadcastTo_apply _ _ (ix2 r (col hh oo)) (ix2 0 (col hh oo)) ?_).trans ?_
    · intro a
      match a with
      | ⟨0, _⟩ => rfl
      | ⟨1, _⟩ => rfl
    · rw [shapeCast_self]

/-- A value read along the last axis of (row r, head hh): the reduced index with the logit's coordinate put back. -/
theorem lift_eq (l : FVec Ideal S256x8x128 .f32) (r : Fin 256) (hh : Fin 8) :
    (l ∘ Facts₀.reduces_S256x8x128_S256x8.lift (ix2 r hh)) = fun o' : Fin 128 => l (ix3 r hh o') :=
  funext fun o' => congrArg l (funext fun a => Fin.ext (by
    match a with
    | ⟨0, _⟩ => rfl
    | ⟨1, _⟩ => rfl
    | ⟨2, _⟩ => rfl))

/-- The repeated maximum at (r, hh, oo) is the fold of max from ⊥ over the head's logits: the pattern of -∞ denotes ⊥. -/
theorem headMax_apply (l : FVec Ideal S256x8x128 .f32) (r : Fin 256) (hh : Fin 8) (oo : Fin 128) :
    headMax l (ix3 r hh oo) = Cert.Spec.rowMax (fun o' => l (ix3 r hh o')) := by
  unfold headMax
  refine (broadcastTo_apply _ _ (ix3 r hh oo) (ix3 r hh (0 : Fin 1)) ?_).trans ?_
  · intro a
    match a with
    | ⟨0, _⟩ => rfl
    | ⟨1, _⟩ => rfl
    | ⟨2, _⟩ => rfl
  refine (shapeCast_apply _ _ (ix3 r hh (0 : Fin 1)) (ix2 r hh) ?_).trans ?_
  · rw [Shape.rowMajor_val_two, Shape.rowMajor_val_three]
    show r.val * 8 + hh.val = (r.val * 8 + hh.val) * 1 + 0
    omega
  refine (Ideal.multiReduction_maximumf_single l 0xFF800000#32 Facts₀.reduces_S256x8x128_S256x8 _ _ (ix2 r hh)).trans ?_
  rw [Ideal.ofBits_def, Cert.Spec.ofBits_neg_inf]
  exact congrArg (fun g : Fin 128 → EReal => (Finset.univ : Finset (Fin 128)).fold max ⊥ g) (lift_eq l r hh)

/-- The repeated sum at (r, hh, oo) is the sum over the head's 128 entries. -/
theorem headSum_apply (e : FVec Ideal S256x8x128 .f32) (r : Fin 256) (hh : Fin 8) (oo : Fin 128) :
    headSum e (ix3 r hh oo) = ∑ o' : Fin 128, e (ix3 r hh o') := by
  unfold headSum
  refine (broadcastTo_apply _ _ (ix3 r hh oo) (ix3 r hh (0 : Fin 1)) ?_).trans ?_
  · intro a
    match a with
    | ⟨0, _⟩ => rfl
    | ⟨1, _⟩ => rfl
    | ⟨2, _⟩ => rfl
  refine (shapeCast_apply _ _ (ix3 r hh (0 : Fin 1)) (ix2 r hh) ?_).trans ?_
  · rw [Shape.rowMajor_val_two, Shape.rowMajor_val_three]
    show r.val * 8 + hh.val = (r.val * 8 + hh.val) * 1 + 0
    omega
  refine (Ideal.multiReduction_add_single e 0x00000000#32 Facts₀.reduces_S256x8x128_S256x8 _ _ (ix2 r hh)).trans ?_
  exact congrArg (fun g : Fin 128 → EReal => ∑ o' : Fin 128, g o') (lift_eq e r hh)

/-- The exponential of a difference, entry by entry. -/
theorem expSub_apply (l m : FVec Ideal S256x8x128 .f32) (i : S256x8x128.Idx) :
    exp (subf l m) i = Ideal.exp (l i - m i) := rfl

/-- The softmax along the last axis at (r, hh, oo) is the specification's softmax of the head's logits. -/
theorem soft_apply (l : FVec Ideal S256x8x128 .f32) (r : Fin 256) (hh : Fin 8) (oo : Fin 128) :
    soft l (ix3 r hh oo) = Cert.Spec.softmax (fun o' => l (ix3 r hh o')) oo := by
  unfold soft Cert.Spec.softmax
  rw [divf_apply, headSum_apply, expSub_apply, headMax_apply]
  refine congrArg (Ideal.div _) (Finset.sum_congr rfl fun o' _ => ?_)
  rw [expSub_apply, headMax_apply]

/-- The chunk at (row r, head hh, logit oo): the softmax over the head's 128 logits, each a row of x against a
    column of w plus the bias there. -/
theorem chunk_apply (x : FVec Ideal S256x512 .bf16) (w : Vec Ideal S512x1024 .bf16) (bias : Vec Ideal S1x1024 .f32)
    (r : Fin 256) (hh : Fin 8) (oo : Fin 128) :
    chunk x w bias (ix3 r hh oo)
      = Cert.Spec.softmax (fun o' => (∑ f : Fin 512, x (ix2 r f) * w (ix2 f (col hh o'))) + bias (ix2 0 (col hh o'))) oo := by
  unfold chunk
  rw [soft_apply]
  congr 1
  funext o'
  exact logits_apply x w bias r hh o'

end Cert.KernelIdeal.HeadsChunk
end
-- ==== Proof.HeadsBlock.lean ====
/-
  What one grid point of the heads kernel leaves in its output block, as one function of the block's index.

  The point holds 256 feature rows x0, a [512, 4096] block x1 of the head weights (32 heads of 128 logits, flattened)
  and the matching [1, 4096] block x2 of biases. Its four chunks take the column slabs 1024·c .. 1024·c + 1023 and store
  heads 8·c .. 8·c + 7 of the [256, 32, 128] output block. Entry (r, hq, oo) of the block is therefore the softmax over o'
  of  ∑ f, x0 (r, f) · x1 (f, 128·hq + o') + x2 (0, 128·hq + o'),  whichever chunk stored it. When the three blocks are
  cut from whole arrays this is the specification's heads at the array's own coordinates.
-/
import proofs.«408686_j62697932587080_3_alg».proof.Proof.Gen.KernelIdeal.Frame
import proofs.«408686_j62697932587080_3_alg».proof.Proof.HeadsChunk

noncomputable section

namespace Cert.KernelIdeal.HeadsBlock

open Idealize.ShloMosaic Idealize.ShloMosaic.TcCoe Idealize.ShloMosaic.ValueIdx Idealize.SL.Sem
open Cert.KernelIdeal Cert.KernelIdeal.Gen Cert.KernelIdeal.HeadsChunk
open scoped BigOperators

/-- The flat column of (head hq, logit oo) among a block's 4096. -/
def bcol (hq : Fin 32) (oo : Fin 128) : Fin 4096 := ⟨128 * hq.val + oo.val, by have := hq.isLt; have := oo.isLt; omega⟩

/-- What a grid point leaves at (row r, head hq, logit oo) of its output block, from its three input blocks. -/
def blockAt (x0 : Vec Ideal S256x512 .bf16) (x1 : Vec Ideal S512x4096 .bf16) (x2 : Vec Ideal S1x4096 .f32)
    (r : Fin 256) (hq : Fin 32) (oo : Fin 128) : EReal :=
  Cert.Spec.softmax (fun o' => (∑ f : Fin 512, x0 (ix2 r f) * x1 (ix2 f (bcol hq o'))) + x2 (ix2 0 (bcol hq o'))) oo

/-- It depends on its coordinates only through their values. -/
theorem blockAt_congr (x0 : Vec Ideal S256x512 .bf16) (x1 : Vec Ideal S512x4096 .bf16) (x2 : Vec Ideal S1x4096 .f32)
    {r r' : Fin 256} {hq hq' : Fin 32} {oo oo' : Fin 128} (h0 : r.val = r'.val) (h1 : hq.val = hq'.val) (h2 : oo.val = oo'.val) :
    blockAt x0 x1 x2 r hq oo = blockAt x0 x1 x2 r' hq' oo' := by
  obtain rfl := Fin.ext h0; obtain rfl := Fin.ext h1; obtain rfl := Fin.ext h2; rfl

/-- The same as one function of the block's index. -/
def blockFn (x0 : Vec Ideal S256x512 .bf16) (x1 : Vec Ideal S512x4096 .bf16) (x2 : Vec Ideal S1x4096 .f32) :
    Vec Ideal S256x32x128 .f32 :=
  fun y => blockAt x0 x1 x2 ⟨(y 0).val, (y 0).isLt⟩ ⟨(y 1).val, (y 1).isLt⟩ ⟨(y 2).val, (y 2).isLt⟩

/-- The zero offsets of a rank-2 load, as the constant function. -/
theorem hz2 : (![0, 0] : Fin 2 → Nat) = fun _ => 0 := funext fun a => by fin_cases a <;> rfl

/-- One chunk over the loads of the three blocks — all of x0, the columns wo .. wo + 1023 of x1 and of x2, with
    wo = 128·ho — at (r, hh, oo) is the block function at head ho + hh: a load reads its operand at the offset plus the
    local index, and wo + (128·hh + o') = 128·(ho + hh) + o'. -/
theorem piece_apply (x0 : Vec Ideal S256x512 .bf16) (x1 : Vec Ideal S512x4096 .bf16) (x2 : Vec Ideal S1x4096 .f32)
    (wo ho : Nat) (hwo : wo = 128 * ho) (hho : ho + 8 ≤ 32)
    (inbw : ∀ a, (![0, wo] : Fin 2 → Nat) a + S512x1024.size a ≤ S512x4096.size a)
    (inbb : ∀ a, (![0, wo] : Fin 2 → Nat) a + S1x1024.size a ≤ S1x4096.size a)
    (r : Fin 256) (hh : Fin 8) (oo : Fin 128) :
    chunk (View.ld x0 r1_0) (View.ld x1 (Rect.unit (s := S512x4096) ![0, wo] S512x1024.size inbw))
        (View.ld x2 (Rect.unit (s := S1x4096) ![0, wo] S1x1024.size inbb)) (ix3 r hh oo)
      = blockAt x0 x1 x2 r ⟨ho + hh.val, by have := hh.isLt; omega⟩ oo := by
  rw [chunk_apply]
  unfold blockAt
  refine congrArg (fun l => Cert.Spec.softmax l oo) (funext fun o' => ?_)
  have e0 : ∀ f : Fin 512, r1_0.idx (ix2 r f) = ix2 r f := fun f => funext fun a => Fin.ext (by
    match a with
    | ⟨0, _⟩ => show 0 + 1 * r.val = r.val; omega
    | ⟨1, _⟩ => show 0 + 1 * f.val = f.val; omega)
  have ew : ∀ f : Fin 512, (Rect.unit (s := S512x4096) ![0, wo] S512x1024.size inbw).idx (ix2 f (col hh o'))
      = ix2 f (bcol ⟨ho + hh.val, by have := hh.isLt; omega⟩ o') := fun f => funext fun a => Fin.ext (by
    match a with
    | ⟨0, _⟩ => show 0 + 1 * f.val = f.val; omega
    | ⟨1, _⟩ => show wo + 1 * (128 * hh.val + o'.val) = 128 * (ho + hh.val) + o'.val; omega)
  have eb : (Rect.unit (s := S1x4096) ![0, wo] S1x1024.size inbb).idx (ix2 0 (col hh o'))
      = ix2 0 (bcol ⟨ho + hh.val, by have := hh.isLt; omega⟩ o') := funext fun a => Fin.ext (by
    match a with
    | ⟨0, _⟩ => show 0 + 1 * 0 = 0; omega
    | ⟨1, _⟩ => show wo + 1 * (128 * hh.val + o'.val) = 128 * (ho + hh.val) + o'.val; omega)
  refine congrArg₂ (· + ·) (Finset.sum_congr rfl fun f _ => ?_) ?_
  · show x0 (r1_0.idx (ix2 r f)) * x1 ((Rect.unit (s := S512x4096) ![0, wo] S512x1024.size inbw).idx (ix2 f (col hh o'))) = _
    rw [e0 f, ew f]
  · show x2 ((Rect.unit (s := S1x4096) ![0, wo] S1x1024.size inbb).idx (ix2 0 (col hh o'))) = _
    rw [eb]

/-- A chunk's stored payload, index by index, is the block function under the chunk's rectangle: heads
    ho .. ho + 7 of the block, all rows, all logits. -/
theorem piece_blk (x0 : Vec Ideal S256x512 .bf16) (x1 : Vec Ideal S512x4096 .bf16) (x2 : Vec Ideal S1x4096 .f32)
    (wo ho : Nat) (hwo : wo = 128 * ho) (hho : ho + 8 ≤ 32)
    (inbw : ∀ a, (![0, wo] : Fin 2 → Nat) a + S512x1024.size a ≤ S512x4096.size a)
    (inbb : ∀ a, (![0, wo] : Fin 2 → Nat) a + S1x1024.size a ≤ S1x4096.size a)
    (inbo : ∀ a, (![0, ho, 0] : Fin 3 → Nat) a + S256x8x128.size a ≤ S256x32x128.size a)
    (x : S256x8x128.Idx) :
    chunk (k1_pay1 (View.ld x0 r1_0)) (View.ld x1 (Rect.unit (s := S512x4096) ![0, wo] S512x1024.size inbw))
        (View.ld x2 (Rect.unit (s := S1x4096) ![0, wo] S1x1024.size inbb)) x
      = blockFn x0 x1 x2 ((Rect.unit (s := S256x32x128) ![0, ho, 0] S256x8x128.size inbo).emb x) := by
  obtain ⟨r, hh, oo, rfl⟩ : ∃ (r : Fin 256) (hh : Fin 8) (oo : Fin 128), x = ix3 r hh oo := ⟨x 0, x 1, x 2, eq_ix3 x⟩
  rw [pay1_eq]
  refine (piece_apply x0 x1 x2 wo ho hwo hho inbw inbb r hh oo).trans ?_
  unfold blockFn
  exact blockAt_congr x0 x1 x2 (by show r.val = 0 + 1 * r.val; omega) (by show ho + hh.val = ho + 1 * hh.val; omega)
    (by show oo.val = 0 + 1 * oo.val; omega)

/-- What the body leaves in the output's staging buffer: its four stores are the four eight-head slabs of ONE function
    of the block's index, and together they cover the block. -/
theorem out_eq (x0 : Vec Ideal S256x512 .bf16) (x1 : Vec Ideal S512x4096 .bf16) (x2 : Vec Ideal S1x4096 .f32) :
    out1_3 (F := Ideal) x0 x1 x2 = blockFn x0 x1 x2 := by
  funext y
  unfold out1_3
  refine View.canon_apply_of_pieces (blockFn x0 x1 x2) _ ?_ y (cover1_3 _ _ _ _ y)
  intro p hp x
  simp only [List.mem_cons, List.not_mem_nil, or_false] at hp
  rcases hp with rfl | rfl | rfl | rfl
  · exact (congrFun (pay5_eq _ _ _) x).trans (piece_blk x0 x1 x2 3072 24 rfl (by omega)
      Facts₀.inb_S512x4096_S512x1024_0_3072 Facts₀.inb_S1x4096_S1x1024_0_3072 Facts₀.inb_S256x32x128_S256x8x128_0_24_0 x)
  · exact (congrFun (pay4_eq _ _ _) x).trans (piece_blk x0 x1 x2 2048 16 rfl (by omega)
      Facts₀.inb_S512x4096_S512x1024_0_2048 Facts₀.inb_S1x4096_S1x1024_0_2048 Facts₀.inb_S256x32x128_S256x8x128_0_16_0 x)
  · exact (congrFun (pay3_eq _ _ _) x).trans (piece_blk x0 x1 x2 1024 8 rfl (by omega)
      Facts₀.inb_S512x4096_S512x1024_0_1024 Facts₀.inb_S1x4096_S1x1024_0_1024 Facts₀.inb_S256x32x128_S256x8x128_0_8_0 x)
  · exact (congrFun (pay2_eq _ _ _) x).trans (piece_blk x0 x1 x2 0 0 rfl (by omega)
      Facts₀.inb_S512x4096_S512x1024_0_0 Facts₀.inb_S1x4096_S1x1024_0_0 Facts₀.inb_S256x32x128_S256x8x128_0_0_0 x)

/-- The block function of the blocks of three arrays X [16384, 512], W [512, 16384], B [1, 16384] — rows 256·it .. of X,
    columns 4096·jt .. of W and of B — is the specification's heads at batch row 256·it + r, head 32·jt + hq: the flat
    column 4096·jt + 128·hq + o' is 128·(32·jt + hq) + o'. -/
theorem blockAt_eq_heads (X : Vec Ideal S16384x512 .bf16) (W : Vec Ideal S512x16384 .bf16) (B : Vec Ideal S1x16384 .f32)
    (x0 : Vec Ideal S256x512 .bf16) (x1 : Vec Ideal S512x4096 .bf16) (x2 : Vec Ideal S1x4096 .f32)
    (it jt : Nat) (hit : it < 64) (hjt : jt < 4)
    (h0 : ∀ (r : Fin 256) (f : Fin 512), x0 (ix2 r f) = X (ix2 (⟨256 * it + r.val, by have := r.isLt; omega⟩ : Fin 16384) f))
    (h1 : ∀ (f : Fin 512) (q : Fin 4096), x1 (ix2 f q) = W (ix2 f (⟨4096 * jt + q.val, by have := q.isLt; omega⟩ : Fin 16384)))
    (h2 : ∀ q : Fin 4096, x2 (ix2 0 q) = B (ix2 0 (⟨4096 * jt + q.val, by have := q.isLt; omega⟩ : Fin 16384)))
    (r : Fin 256) (hq : Fin 32) (oo : Fin 128) :
    blockAt x0 x1 x2 r hq oo
      = Cert.Spec.heads (fun b f => X (ix2 b f)) (fun h o f => W (ix2 f (Cert.Spec.flat h o)))
          (fun h o => B (ix2 0 (Cert.Spec.flat h o)))
          ⟨256 * it + r.val, by have := r.isLt; omega⟩ ⟨32 * jt + hq.val, by have := hq.isLt; omega⟩ oo := by
  unfold blockAt Cert.Spec.heads Cert.Spec.logit
  refine congrArg (fun l => Cert.Spec.softmax l oo) (funext fun o' => ?_)
  have ec : (⟨4096 * jt + (bcol hq o').val, by have := (bcol hq o').isLt; omega⟩ : Fin 16384)
      = Cert.Spec.flat ⟨32 * jt + hq.val, by have := hq.isLt; omega⟩ o' :=
    Fin.ext (by show 4096 * jt + (128 * hq.val + o'.val) = 128 * (32 * jt + hq.val) + o'.val; omega)
  refine congrArg₂ (· + ·) (Finset.sum_congr rfl fun f _ => ?_) ?_
  · rw [h0, h1, ec]
  · rw [h2, ec]

/-- The specification's heads of three whole arrays, as one function of the output array's index. -/
def headsArr (X : Vec Ideal S16384x512 .bf16) (W : Vec Ideal S512x16384 .bf16) (B : Vec Ideal S1x16384 .f32) :
    Vec Ideal S16384x128x128 .f32 :=
  fun i => Cert.Spec.heads (fun b f => X (ix2 b f)) (fun h o f => W (ix2 f (Cert.Spec.flat h o)))
    (fun h o => B (ix2 0 (Cert.Spec.flat h o))) ⟨(i 0).val, (i 0).isLt⟩ ⟨(i 1).val, (i 1).isLt⟩ ⟨(i 2).val, (i 2).isLt⟩

end Cert.KernelIdeal.HeadsBlock
end
-- ==== Proof.HeadsValue.lean ====
/-
  The array the heads region leaves, index by index.

  The region runs 4 × 64 grid points; point t has coordinates (jt, it) = (t / 64, t % 64). It reads rows 256·it .. of the
  features [16384, 512], columns 4096·jt .. of the flattened, transposed head weights [512, 16384] and of the flattened
  biases [1, 16384], and writes rows 256·it .., heads 32·jt .., all logits of the result [16384, 128, 128]. What it
  writes is its block of ONE function of the result's index — the specification's heads of the three input arrays —, and
  the blocks of the 256 points cover the result, so the result ends as that function: at (b, h, o) the softmax over o of
  head h's logits of batch row b, the weight from feature f to (h, o) read at (f, 128·h + o).
-/
import proofs.«408686_j62697932587080_3_alg».proof.Proof.Gen.KernelIdeal.Frame
import proofs.«408686_j62697932587080_3_alg».proof.Proof.Spec
import proofs.«408686_j62697932587080_3_alg».proof.Proof.HeadsBlock
import Idealize.ShloMosaic.Lib.ValueIdx
import Idealize.ShloMosaic.Lib.Pipeline.Value

noncomputable section

open Idealize.ShloMosaic Idealize.ShloMosaic.TcCoe Idealize.ShloMosaic.ValueIdx Idealize.SL.Sem

namespace Cert.KernelIdeal.HeadsValue
open Cert.KernelIdeal Cert.KernelIdeal.Gen
open Cert.KernelIdeal.HeadsBlock

variable (V : (c : Dev nD) → (b : Ref sig .tc) → Buf (Elt Ideal) ((c : Thread nD τ).loc b))

/-- The printed index maps over the grid of 4 × 64 points, point t at coordinates (t / 64, t % 64): the output's block
    index is (t % 64, t / 64, 0), the features' (t % 64, 0), the weights' and the biases' (0, t / 64). -/
theorem idx_facts : ∀ t : Fin cfg1.N, win1_3.index t (0 : Fin 3) = t.val % 64 ∧ win1_3.index t (1 : Fin 3) = t.val / 64
    ∧ win1_3.index t (2 : Fin 3) = 0
    ∧ win1_0.index t (0 : Fin 2) = t.val % 64 ∧ win1_0.index t (1 : Fin 2) = 0
    ∧ win1_1.index t (0 : Fin 2) = 0 ∧ win1_1.index t (1 : Fin 2) = t.val / 64
    ∧ win1_2.index t (0 : Fin 2) = 0 ∧ win1_2.index t (1 : Fin 2) = t.val / 64 :=
  (by decide +kernel : ∀ t : Fin grid1.N, _)

/-- The array the region leaves: the specification's heads of the three input arrays as the region finds them. -/
abbrev headsOf (c : Dev nD) : Vec Ideal S16384x128x128 .f32 :=
  headsArr (V c main_v14) (V c main_v12) (V c main_v13)

/-- The heads depend on their coordinates only through their values. -/
theorem heads_congr (x : Fin 16384 → Fin 512 → EReal) (wk : Fin 128 → Fin 128 → Fin 512 → EReal) (bk : Fin 128 → Fin 128 → EReal)
    {b b' : Fin 16384} {h h' o o' : Fin 128} (e0 : b.val = b'.val) (e1 : h.val = h'.val) (e2 : o.val = o'.val) :
    Cert.Spec.heads x wk bk b h o = Cert.Spec.heads x wk bk b' h' o' := by
  obtain rfl := Fin.ext e0; obtain rfl := Fin.ext e1; obtain rfl := Fin.ext e2; rfl

/-- What point t writes back is its block of that array: each input block is its array at the block's offset plus the
    local index, and the output block's index (r, hq, oo) sits at (256·it + r, 32·jt + hq, oo) of the result. -/
theorem flushed_eq (c : Dev nD) (t : Fin cfg1.N) :
    (dat1 (F := Ideal) V c).flushed 3 t = ((cfg1.win 3).blk t).view.read (Elt Ideal) (headsOf V c) := by
  show (cfg1.win 3).cut (grid1.coords t) ((dat1 V c).after 3 t) = _
  rw [after1_3, out_eq]
  obtain ⟨e30, e31, e32, e00, e01, e10, e11, e20, e21⟩ := idx_facts t
  have ht0 : t.val % 64 < 64 := Nat.mod_lt _ (by omega)
  have ht1 : t.val / 64 < 4 := by have h : t.val < 256 := Nat.lt_of_lt_of_eq t.isLt N_1; omega
  funext j
  have hj0 : (j 0).val < 256 := (j 0).isLt
  have hj1 : (j 1).val < 32 := (j 1).isLt
  have hj2 : (j 2).val < 128 := (j 2).isLt
  refine (blockAt_eq_heads (V c main_v14) (V c main_v12) (V c main_v13) (iblk1 V c 0 t) (iblk1 V c 1 t) (iblk1 V c 2 t)
    (t.val % 64) (t.val / 64) ht0 ht1 ?_ ?_ ?_ ⟨(j 0).val, hj0⟩ ⟨(j 1).val, hj1⟩ ⟨(j 2).val, hj2⟩).trans ?_
  · intro r f
    unfold iblk1
    rw [View.read_apply]
    refine congrArg (V c main_v14) (funext fun a => Fin.ext ?_)
    match a with
    | ⟨0, _⟩ => show win1_0.index t (0 : Fin 2) * 256 + 1 * r.val = 256 * (t.val % 64) + r.val; rw [e00]; omega
    | ⟨1, _⟩ => show win1_0.index t (1 : Fin 2) * 512 + 1 * f.val = f.val; rw [e01]; omega
  · intro f q
    unfold iblk1
    rw [View.read_apply]
    refine congrArg (V c main_v12) (funext fun a => Fin.ext ?_)
    match a with
    | ⟨0, _⟩ => show win1_1.index t (0 : Fin 2) * 512 + 1 * f.val = f.val; rw [e10]; omega
    | ⟨1, _⟩ => show win1_1.index t (1 : Fin 2) * 4096 + 1 * q.val = 4096 * (t.val / 64) + q.val; rw [e11]; omega
  · intro q
    unfold iblk1
    rw [View.read_apply]
    refine congrArg (V c main_v13) (funext fun a => Fin.ext ?_)
    match a with
    | ⟨0, _⟩ => show win1_2.index t (0 : Fin 2) * 1 + 1 * 0 = 0; rw [e20]
    | ⟨1, _⟩ => show win1_2.index t (1 : Fin 2) * 4096 + 1 * q.val = 4096 * (t.val / 64) + q.val; rw [e21]; omega
  · rw [View.read_apply]
    unfold headsOf headsArr
    refine heads_congr _ _ _ ?_ ?_ ?_
    · show 256 * (t.val % 64) + (j 0).val = win1_3.index t (0 : Fin 3) * 256 + 1 * (j 0).val; rw [e30]; omega
    · show 32 * (t.val / 64) + (j 1).val = win1_3.index t (1 : Fin 3) * 32 + 1 * (j 1).val; rw [e31]; omega
    · show (j 2).val = win1_3.index t (2 : Fin 3) * 128 + 1 * (j 2).val; rw [e32]; omega

/-- An index of the array is in point t's block iff each coordinate is in the block's range on its axis. -/
theorem mem_blk (t : Fin cfg1.N) (i : S16384x128x128.Idx) :
    i ∈ ((cfg1.win 3).blk t).view.set ↔ ∀ a : Fin 3, win1_3.index t a * S256x32x128.size a ≤ (i a).val
      ∧ (i a).val < win1_3.index t a * S256x32x128.size a + S256x32x128.size a := by
  show i ∈ ((View.whole main_v15).slice (win1_3.rect t)).set ↔ _
  rw [View.set_slice_whole, Rect.mem_set_unit]
  exact Iff.rfl

/-- Every index (b, h, o) of the array is in the block of the point with coordinates (h / 32, b / 256), point
    number 64·(h / 32) + b / 256. -/
theorem cover (i : S16384x128x128.Idx) :
    ∃ t : Fin cfg1.N, (cfg1.win 3).flush t = true ∧ i ∈ ((cfg1.win 3).blk t).view.set := by
  have hb : (i 0).val < 16384 := (i 0).isLt
  have hh : (i 1).val < 128 := (i 1).isLt
  have ho : (i 2).val < 128 := (i 2).isLt
  have hN : cfg1.N = 256 := N_1
  obtain ⟨t, ht⟩ : ∃ t : Fin cfg1.N, t.val = (i 1).val / 32 * 64 + (i 0).val / 256 :=
    ⟨⟨(i 1).val / 32 * 64 + (i 0).val / 256, by rw [hN]; omega⟩, rfl⟩
  refine ⟨t, flush1_3 t, ?_⟩
  rw [mem_blk]
  obtain ⟨e30, e31, e32, -⟩ := idx_facts t
  intro a
  match a with
  | ⟨0, _⟩ =>
    show win1_3.index t (0 : Fin 3) * 256 ≤ (i 0).val ∧ (i 0).val < win1_3.index t (0 : Fin 3) * 256 + 256
    rw [e30, ht]; omega
  | ⟨1, _⟩ =>
    show win1_3.index t (1 : Fin 3) * 32 ≤ (i 1).val ∧ (i 1).val < win1_3.index t (1 : Fin 3) * 32 + 32
    rw [e31, ht]; omega
  | ⟨2, _⟩ =>
    show win1_3.index t (2 : Fin 3) * 128 ≤ (i 2).val ∧ (i 2).val < win1_3.index t (2 : Fin 3) * 128 + 128
    rw [e32]; omega

/-- The array after the region's write-backs is the heads of the input arrays. -/
theorem final (c : Dev nD) : (dat1 (F := Ideal) V c).arrAt 3 cfg1.N = headsOf V c :=
  (dat1 (F := Ideal) V c).arrAt_eq_of_cover 3 (headsOf V c) (fun t _ => flushed_eq V c t) (cover)

/-- After the region's write-backs the result holds, at (batch row b, head h, logit o), the softmax over o of the head's
    logits: the features of row b against the weights of (h, ·) plus the biases, the arrays as the region found them. -/
theorem heads_value (c : Dev nD) (b : Fin 16384) (h o : Fin 128) :
    (dat1 (F := Ideal) V c).arrAt 3 cfg1.N (ix3 b h o)
      = Cert.Spec.heads (fun b f => V c main_v14 (ix2 b f))
          (fun h o f => V c main_v12 (ix2 f (Cert.Spec.flat h o)))
          (fun h o => V c main_v13 (ix2 0 (Cert.Spec.flat h o))) b h o :=
  congrFun (final V c) (ix3 b h o)

end Cert.KernelIdeal.HeadsValue
end
-- ==== Proof.Chain.lean ====
/-
  The two pallas_calls chained. The first call's result array is the second call's feature operand; the weights and
  biases each call reads are host rearrangements of the arguments. Substituting what each call finds in its operands
  into what it leaves in its result gives the program's result array as one function of the arguments: at (batch
  row, head, logit), the softmax over the head's 128 logits of the row's features.
-/
import proofs.«408686_j62697932587080_3_alg».proof.Proof.Gen.KernelIdeal.Frame
import proofs.«408686_j62697932587080_3_alg».proof.Proof.Spec
import proofs.«408686_j62697932587080_3_alg».proof.Proof.Glue
import proofs.«408686_j62697932587080_3_alg».proof.Proof.FeatValue
import proofs.«408686_j62697932587080_3_alg».proof.Proof.HeadsValue
import Idealize.ShloMosaic.Lib.ValueIdx

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The second call's feature operand, where the first call's write-backs left it, is the features of the
    arguments: the first call's result read through what it found in its operands. -/
theorem feat_at (c : Dev nD) (b : Fin 16384) (f : Fin 512) :
    V2 m ρ c main_v14 (ix2 b f)
      = Cert.Spec.feat (fun b k => m ((c : Thread nD τ).loc main_arg0) (ix2 b k)) (fun b k => m ((c : Thread nD τ).loc main_arg1) (ix2 b k))
          (fun j k => m ((c : Thread nD τ).loc main_arg2) (ix2 j k)) (fun j => m ((c : Thread nD τ).loc main_arg3) (ix1 j))
          (fun j k => m ((c : Thread nD τ).loc main_arg4) (ix2 j k)) (fun j => m ((c : Thread nD τ).loc main_arg5) (ix1 j))
          (fun l j k => m ((c : Thread nD τ).loc main_arg6) (ix3 l j k)) (fun l j => m ((c : Thread nD τ).loc main_arg7) (ix2 l j)) b f := by
  have e : V2 m ρ c main_v14 = (dat0 (V1 m ρ) c).arrAt 8 cfg0.N := W2_arr m ρ c 8
  have h0 : (fun b k => V1 m ρ c main_v0 (ix2 b k)) = fun b k => m ((c : Thread nD τ).loc main_arg0) (ix2 b k) :=
    funext fun b => funext fun k => Glue.obs_at m ρ c b k
  have h1 : (fun b k => V1 m ρ c main_v1 (ix2 b k)) = fun b k => m ((c : Thread nD τ).loc main_arg1) (ix2 b k) :=
    funext fun b => funext fun k => Glue.act_at m ρ c b k
  have h2 : (fun j k => V1 m ρ c main_v3 (ix2 k j)) = fun j k => m ((c : Thread nD τ).loc main_arg2) (ix2 j k) :=
    funext fun j => funext fun k => Glue.wo_at m ρ c j k
  have h3 : (fun j => V1 m ρ c main_v4 (ix2 0 j)) = fun j => m ((c : Thread nD τ).loc main_arg3) (ix1 j) :=
    funext fun j => Glue.bo_at m ρ c j
  have h4 : (fun j k => V1 m ρ c main_v6 (ix2 k j)) = fun j k => m ((c : Thread nD τ).loc main_arg4) (ix2 j k) :=
    funext fun j => funext fun k => Glue.wa_at m ρ c j k
  have h5 : (fun j => V1 m ρ c main_v7 (ix2 0 j)) = fun j => m ((c : Thread nD τ).loc main_arg5) (ix1 j) :=
    funext fun j => Glue.ba_at m ρ c j
  have h6 : (fun l j k => V1 m ρ c main_v9 (ix3 l k j)) = fun l j k => m ((c : Thread nD τ).loc main_arg6) (ix3 l j k) :=
    funext fun l => funext fun j => funext fun k => Glue.wfc_at m ρ c l j k
  have h7 : (fun l j => V1 m ρ c main_arg7 (ix2 l j)) = fun l j => m ((c : Thread nD τ).loc main_arg7) (ix2 l j) :=
    funext fun l => funext fun j => Glue.bfc_at m ρ c l j
  refine (congrFun e (ix2 b f)).trans ((FeatValue.feat_value (V1 m ρ) c b f).trans ?_)
  rw [h0, h1, h2, h3, h4, h5, h6, h7]

/-- The result array after the run, at (batch row, head, logit), is the softmax of the head's logits of the
    features of the arguments. -/
theorem result_at (c : Dev nD) (b : Fin 16384) (h o : Fin 128) :
    W3 m ρ c (Proc.devRef .tc main_v15) (ix3 b h o)
      = Cert.Spec.heads
          (Cert.Spec.feat (fun b k => m ((c : Thread nD τ).loc main_arg0) (ix2 b k)) (fun b k => m ((c : Thread nD τ).loc main_arg1) (ix2 b k))
          (fun j k => m ((c : Thread nD τ).loc main_arg2) (ix2 j k)) (fun j => m ((c : Thread nD τ).loc main_arg3) (ix1 j))
          (fun j k => m ((c : Thread nD τ).loc main_arg4) (ix2 j k)) (fun j => m ((c : Thread nD τ).loc main_arg5) (ix1 j))
          (fun l j k => m ((c : Thread nD τ).loc main_arg6) (ix3 l j k)) (fun l j => m ((c : Thread nD τ).loc main_arg7) (ix2 l j)))
          (fun h o f => m ((c : Thread nD τ).loc main_arg8) (ix3 h o f))
          (fun h o => m ((c : Thread nD τ).loc main_arg9) (ix2 h o)) b h o := by
  have e : W3 m ρ c (Proc.devRef .tc main_v15) = (dat1 (V2 m ρ) c).arrAt 3 cfg1.N := W3_arr m ρ c 3
  have hx : (fun b f => V2 m ρ c main_v14 (ix2 b f))
      = Cert.Spec.feat (fun b k => m ((c : Thread nD τ).loc main_arg0) (ix2 b k)) (fun b k => m ((c : Thread nD τ).loc main_arg1) (ix2 b k))
          (fun j k => m ((c : Thread nD τ).loc main_arg2) (ix2 j k)) (fun j => m ((c : Thread nD τ).loc main_arg3) (ix1 j))
          (fun j k => m ((c : Thread nD τ).loc main_arg4) (ix2 j k)) (fun j => m ((c : Thread nD τ).loc main_arg5) (ix1 j))
          (fun l j k => m ((c : Thread nD τ).loc main_arg6) (ix3 l j k)) (fun l j => m ((c : Thread nD τ).loc main_arg7) (ix2 l j)) :=
    funext fun b => funext fun f => feat_at m ρ c b f
  have hw : (fun h o f => V2 m ρ c main_v12 (ix2 f (Cert.Spec.flat h o)))
      = fun h o f => m ((c : Thread nD τ).loc main_arg8) (ix3 h o f) :=
    funext fun h => funext fun o => funext fun f =>
      (congrFun (W2_of_ne m ρ c main_v12 (by decide)) (ix2 f (Cert.Spec.flat h o))).trans (Glue.wk_at m ρ c h o f)
  have hb : (fun h o => V2 m ρ c main_v13 (ix2 0 (Cert.Spec.flat h o)))
      = fun h o => m ((c : Thread nD τ).loc main_arg9) (ix2 h o) :=
    funext fun h => funext fun o =>
      (congrFun (W2_of_ne m ρ c main_v13 (by decide)) (ix2 0 (Cert.Spec.flat h o))).trans (Glue.bk_at m ρ c h o)
  refine (congrFun e (ix3 b h o)).trans ((HeadsValue.heads_value (V2 m ρ) c b h o).trans ?_)
  rw [hx, hw, hb]

end Cert.KernelIdeal.Chain

end
-- ==== Proof.RefFeatures.lean ====
/-
  The reference's features, read one entry at a time.

  A batch row's observation and action go through two affine maps whose outputs are laid side by side (columns 0..255
  from the observation, 256..511 from the action); three affine layers follow, each applied to the positive part of
  its input. The program holds every weight matrix as (output, input) and transposes it before the product, and it
  cuts each layer's matrix and bias out of a stack; read at an index, each stage is a sum over the contracted
  coordinate of entries of the arguments at coordinates named outright. The lemmas below say so stage by stage, each
  at an index built from its coordinates, and `feat_value` joins them into the feature row of the specification.
-/
import proofs.«408686_j62697932587080_3_alg».proof.Proof.Gen.ReferenceIdeal.Read
import proofs.«408686_j62697932587080_3_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx Idealize.SL.Sem
open scoped BigOperators

namespace Cert.ReferenceIdeal.RefValue
open Cert.ReferenceIdeal Cert.ReferenceIdeal.Gen Cert.ReferenceIdeal.Read

/-! ## The two projections -/

/-- The observation half: entry `j` is the observation row against row `j` of the observation weights (the program
    transposes the weights first, so it reads their (j, k) entry at (k, j) of the transpose) plus the bias. -/
theorem obs_half (x0 : (⟨S16384x512, .f32⟩ : BufTy).Contents (Elt Ideal)) (x2 : (⟨S256x512, .f32⟩ : BufTy).Contents (Elt Ideal))
    (x3 : (⟨S256, .f32⟩ : BufTy).Contents (Elt Ideal)) (b : Fin 16384) (j : Fin 256) :
    val_main_v4 (F := Ideal) x0 x2 x3 (ix2 b j) = (∑ k : Fin 512, x0 (ix2 b k) * x2 (ix2 j k)) + x3 (ix1 j) := by
  have el : ∀ k : Fin 512, lidx_main_v1 (ix2 b j) k = ix2 b k := fun k =>
    funext fun a => Fin.ext (by match a with | ⟨0, _⟩ => rfl | ⟨1, _⟩ => rfl)
  have er : ∀ k : Fin 512, idx_main_v0 (ridx_main_v1 (ix2 b j) k) = ix2 j k := fun k =>
    funext fun a => Fin.ext (by match a with | ⟨0, _⟩ => rfl | ⟨1, _⟩ => rfl)
  have eb : idx_main_v2 (idx_main_v3 (ix2 b j)) = ix1 j :=
    funext fun a => Fin.ext (by match a with | ⟨0, _⟩ => rfl)
  rw [val_main_v4_apply, val_main_v1_apply, val_main_v3_apply, val_main_v2_apply]
  simp only [val_main_v0_apply, el, er, eb, Ideal.addf_def]

/-- The action half, likewise over the 64 action coordinates. -/
theorem act_half (x1 : (⟨S16384x64, .f32⟩ : BufTy).Contents (Elt Ideal)) (x4 : (⟨S256x64, .f32⟩ : BufTy).Contents (Elt Ideal))
    (x5 : (⟨S256, .f32⟩ : BufTy).Contents (Elt Ideal)) (b : Fin 16384) (j : Fin 256) :
    val_main_v9 (F := Ideal) x1 x4 x5 (ix2 b j) = (∑ k : Fin 64, x1 (ix2 b k) * x4 (ix2 j k)) + x5 (ix1 j) := by
  have el : ∀ k : Fin 64, lidx_main_v6 (ix2 b j) k = ix2 b k := fun k =>
    funext fun a => Fin.ext (by match a with | ⟨0, _⟩ => rfl | ⟨1, _⟩ => rfl)
  have er : ∀ k : Fin 64, idx_main_v5 (ridx_main_v6 (ix2 b j) k) = ix2 j k := fun k =>
    funext fun a => Fin.ext (by match a with | ⟨0, _⟩ => rfl | ⟨1, _⟩ => rfl)
  have eb : idx_main_v7 (idx_main_v8 (ix2 b j)) = ix1 j :=
    funext fun a => Fin.ext (by match a with | ⟨0, _⟩ => rfl)
  rw [val_main_v9_apply, val_main_v6_apply, val_main_v8_apply, val_main_v7_apply]
  simp only [val_main_v5_apply, el, er, eb, Ideal.addf_def]

/-- The two halves laid side by side along the columns: a column below 256 is read from the observation half at the
    same column, a column from 256 on from the action half at the column less 256. -/
theorem proj_value (x0 : (⟨S16384x512, .f32⟩ : BufTy).Contents (Elt Ideal)) (x1 : (⟨S16384x64, .f32⟩ : BufTy).Contents (Elt Ideal))
    (x2 : (⟨S256x512, .f32⟩ : BufTy).Contents (Elt Ideal)) (x3 : (⟨S256, .f32⟩ : BufTy).Contents (Elt Ideal))
    (x4 : (⟨S256x64, .f32⟩ : BufTy).Contents (Elt Ideal)) (x5 : (⟨S256, .f32⟩ : BufTy).Contents (Elt Ideal)) (b : Fin 16384) (j : Fin 512) :
    val_main_v10 (F := Ideal) x0 x1 x2 x3 x4 x5 (ix2 b j)
      = Cert.Spec.proj (fun b k => x0 (ix2 b k)) (fun b k => x1 (ix2 b k)) (fun j k => x2 (ix2 j k)) (fun j => x3 (ix1 j))
          (fun j k => x4 (ix2 j k)) (fun j => x5 (ix1 j)) b j := by
  unfold val_main_v10 Cert.Spec.proj
  by_cases h : j.val < 256
  · rw [dif_pos h]
    exact (concatenate_pair_apply_left 1 _ _ concatenates_S16384x256_S16384x256_S16384x512_d1 (ix2 b j) rfl
      (ix2 b (⟨j.val, h⟩ : Fin 256)) (fun c => match c with | ⟨0, _⟩ => rfl | ⟨1, _⟩ => rfl)).trans (obs_half x0 x2 x3 b ⟨j.val, h⟩)
  · rw [dif_neg h]
    exact (concatenate_pair_apply_right 1 _ _ concatenates_S16384x256_S16384x256_S16384x512_d1 (ix2 b j) rfl rfl
      (ix2 b (⟨j.val - 256, by omega⟩ : Fin 256)) (fun c hc => match c with | ⟨0, _⟩ => rfl | ⟨1, _⟩ => absurd rfl hc)
      (show j.val - 256 + 256 = j.val by omega)).trans (act_half x1 x4 x5 b ⟨j.val - 256, by omega⟩)

/-! ## The three layers -/

/-- Layer 0: entry `j` of row `b` after the layer is the row before it, positive parts taken, against row `j` of
    the layer's weight matrix (the program slices matrix 0 out of the stack, drops the unit axis and transposes it,
    so its (k, j) entry is the stack's (0, j, k) entry), plus entry `j` of the layer's bias row. -/
theorem layer0_value (x0 : (⟨S16384x512, .f32⟩ : BufTy).Contents (Elt Ideal)) (x1 : (⟨S16384x64, .f32⟩ : BufTy).Contents (Elt Ideal))
    (x2 : (⟨S256x512, .f32⟩ : BufTy).Contents (Elt Ideal)) (x3 : (⟨S256, .f32⟩ : BufTy).Contents (Elt Ideal))
    (x4 : (⟨S256x64, .f32⟩ : BufTy).Contents (Elt Ideal)) (x5 : (⟨S256, .f32⟩ : BufTy).Contents (Elt Ideal))
    (x6 : (⟨S3x512x512, .f32⟩ : BufTy).Contents (Elt Ideal)) (x7 : (⟨S3x512, .f32⟩ : BufTy).Contents (Elt Ideal)) (b : Fin 16384) (j : Fin 512) :
    val_main_v20 (F := Ideal) x0 x1 x2 x3 x4 x5 x6 x7 (ix2 b j)
      = Cert.Spec.layer (fun j k => x6 (ix3 0 j k)) (fun j => x7 (ix2 0 j))
          (fun k => val_main_v10 (F := Ideal) x0 x1 x2 x3 x4 x5 (ix2 b k)) j := by
  have el : ∀ k : Fin 512, lidx_main_v15 (ix2 b j) k = ix2 b k := fun k =>
    funext fun a => Fin.ext (by match a with | ⟨0, _⟩ => rfl | ⟨1, _⟩ => rfl)
  have er : ∀ k : Fin 512,
      idx_main_v12 (idx_main_v13 (idx_main_v14 (ridx_main_v15 (ix2 b j) k))) = ix3 0 j k := fun k =>
    funext fun a => Fin.ext (by
      match a with
      | ⟨0, _⟩ => rfl
      | ⟨1, _⟩ => show (j.val * 512 + k.val) / 512 % 512 = j.val; omega
      | ⟨2, _⟩ => show (j.val * 512 + k.val) % 512 = k.val; omega)
  have eb : idx_main_v16 (idx_main_v17 (idx_main_v18 (idx_main_v19 (ix2 b j)))) = ix2 0 j :=
    funext fun a => Fin.ext (by
      match a with
      | ⟨0, _⟩ => rfl
      | ⟨1, _⟩ => show j.val % 512 = j.val; omega)
  unfold Cert.Spec.layer Cert.Spec.relu
  rw [val_main_v20_apply, val_main_v15_apply, val_main_v19_apply, val_main_v18_apply, val_main_v17_apply,
    val_main_v16_apply]
  simp only [val_main_v11_apply]
  generalize val_main_v10 (F := Ideal) x0 x1 x2 x3 x4 x5 = y
  simp only [ val_main_call0_v0_apply, val_main_call0_cst_apply, val_main_v14_apply,
    val_main_v13_apply, val_main_v12_apply, el, er, eb, Ideal.addf_def, Ideal.maximumf_def, Ideal.ofBits_def, Ideal.ofBits_zero_f32]

/-- Layer 1: entry `j` of row `b` after the layer is the row before it, positive parts taken, against row `j` of
    the layer's weight matrix (the program slices matrix 1 out of the stack, drops the unit axis and transposes it,
    so its (k, j) entry is the stack's (1, j, k) entry), plus entry `j` of the layer's bias row. -/
theorem layer1_value (x0 : (⟨S16384x512, .f32⟩ : BufTy).Contents (Elt Ideal)) (x1 : (⟨S16384x64, .f32⟩ : BufTy).Contents (Elt Ideal))
    (x2 : (⟨S256x512, .f32⟩ : BufTy).Contents (Elt Ideal)) (x3 : (⟨S256, .f32⟩ : BufTy).Contents (Elt Ideal))
    (x4 : (⟨S256x64, .f32⟩ : BufTy).Contents (Elt Ideal)) (x5 : (⟨S256, .f32⟩ : BufTy).Contents (Elt Ideal))
    (x6 : (⟨S3x512x512, .f32⟩ : BufTy).Contents (Elt Ideal)) (x7 : (⟨S3x512, .f32⟩ : BufTy).Contents (Elt Ideal)) (b : Fin 16384) (j : Fin 512) :
    val_main_v30 (F := Ideal) x0 x1 x2 x3 x4 x5 x6 x7 (ix2 b j)
      = Cert.Spec.layer (fun j k => x6 (ix3 1 j k)) (fun j => x7 (ix2 1 j))
          (fun k => val_main_v20 (F := Ideal) x0 x1 x2 x3 x4 x5 x6 x7 (ix2 b k)) j := by
  have el : ∀ k : Fin 512, lidx_main_v25 (ix2 b j) k = ix2 b k := fun k =>
    funext fun a => Fin.ext (by match a with | ⟨0, _⟩ => rfl | ⟨1, _⟩ => rfl)
  have er : ∀ k : Fin 512,
      idx_main_v22 (idx_main_v23 (idx_main_v24 (ridx_main_v25 (ix2 b j) k))) = ix3 1 j k := fun k =>
    funext fun a => Fin.ext (by
      match a with
      | ⟨0, _⟩ => rfl
      | ⟨1, _⟩ => show (j.val * 512 + k.val) / 512 % 512 = j.val; omega
      | ⟨2, _⟩ => show (j.val * 512 + k.val) % 512 = k.val; omega)
  have eb : idx_main_v26 (idx_main_v27 (idx_main_v28 (idx_main_v29 (ix2 b j)))) = ix2 1 j :=
    funext fun a => Fin.ext (by
      match a with
      | ⟨0, _⟩ => rfl
      | ⟨1, _⟩ => show j.val % 512 = j.val; omega)
  unfold Cert.Spec.layer Cert.Spec.relu
  rw [val_main_v30_apply, val_main_v25_apply, val_main_v29_apply, val_main_v28_apply, val_main_v27_apply,
    val_main_v26_apply]
  simp only [val_main_v21_apply]
  generalize val_main_v20 (F := Ideal) x0 x1 x2 x3 x4 x5 x6 x7 = y
  simp only [ val_main_call1_v0_apply, val_main_call1_cst_apply, val_main_v24_apply,
    val_main_v23_apply, val_main_v22_apply, el, er, eb, Ideal.addf_def, Ideal.maximumf_def, Ideal.ofBits_def, Ideal.ofBits_zero_f32]

/-- Layer 2: entry `j` of row `b` after the layer is the row before it, positive parts taken, against row `j` of
    the layer's weight matrix (the program slices matrix 2 out of the stack, drops the unit axis and transposes it,
    so its (k, j) entry is the stack's (2, j, k) entry), plus entry `j` of the layer's bias row. -/
theorem layer2_value (x0 : (⟨S16384x512, .f32⟩ : BufTy).Contents (Elt Ideal)) (x1 : (⟨S16384x64, .f32⟩ : BufTy).Contents (Elt Ideal))
    (x2 : (⟨S256x512, .f32⟩ : BufTy).Contents (Elt Ideal)) (x3 : (⟨S256, .f32⟩ : BufTy).Contents (Elt Ideal))
    (x4 : (⟨S256x64, .f32⟩ : BufTy).Contents (Elt Ideal)) (x5 : (⟨S256, .f32⟩ : BufTy).Contents (Elt Ideal))
    (x6 : (⟨S3x512x512, .f32⟩ : BufTy).Contents (Elt Ideal)) (x7 : (⟨S3x512, .f32⟩ : BufTy).Contents (Elt Ideal)) (b : Fin 16384) (j : Fin 512) :
    val_main_v40 (F := Ideal) x0 x1 x2 x3 x4 x5 x6 x7 (ix2 b j)
      = Cert.Spec.layer (fun j k => x6 (ix3 2 j k)) (fun j => x7 (ix2 2 j))
          (fun k => val_main_v30 (F := Ideal) x0 x1 x2 x3 x4 x5 x6 x7 (ix2 b k)) j := by
  have el : ∀ k : Fin 512, lidx_main_v35 (ix2 b j) k = ix2 b k := fun k =>
    funext fun a => Fin.ext (by match a with | ⟨0, _⟩ => rfl | ⟨1, _⟩ => rfl)
  have er : ∀ k : Fin 512,
      idx_main_v32 (idx_main_v33 (idx_main_v34 (ridx_main_v35 (ix2 b j) k))) = ix3 2 j k := fun k =>
    funext fun a => Fin.ext (by
      match a with
      | ⟨0, _⟩ => rfl
      | ⟨1, _⟩ => show (j.val * 512 + k.val) / 512 % 512 = j.val; omega
      | ⟨2, _⟩ => show (j.val * 512 + k.val) % 512 = k.val; omega)
  have eb : idx_main_v36 (idx_main_v37 (idx_main_v38 (idx_main_v39 (ix2 b j)))) = ix2 2 j :=
    funext fun a => Fin.ext (by
      match a with
      | ⟨0, _⟩ => rfl
      | ⟨1, _⟩ => show j.val % 512 = j.val; omega)
  unfold Cert.Spec.layer Cert.Spec.relu
  rw [val_main_v40_apply, val_main_v35_apply, val_main_v39_apply, val_main_v38_apply, val_main_v37_apply,
    val_main_v36_apply]
  simp only [val_main_v31_apply]
  generalize val_main_v30 (F := Ideal) x0 x1 x2 x3 x4 x5 x6 x7 = y
  simp only [ val_main_call2_v0_apply, val_main_call2_cst_apply, val_main_v34_apply,
    val_main_v33_apply, val_main_v32_apply, el, er, eb, Ideal.addf_def, Ideal.maximumf_def, Ideal.ofBits_def, Ideal.ofBits_zero_f32]

/-! ## The features -/

/-- Row `b` of the last layer's output is the feature row: the projections through the three layers. -/
theorem feat_value (x0 : (⟨S16384x512, .f32⟩ : BufTy).Contents (Elt Ideal)) (x1 : (⟨S16384x64, .f32⟩ : BufTy).Contents (Elt Ideal))
    (x2 : (⟨S256x512, .f32⟩ : BufTy).Contents (Elt Ideal)) (x3 : (⟨S256, .f32⟩ : BufTy).Contents (Elt Ideal))
    (x4 : (⟨S256x64, .f32⟩ : BufTy).Contents (Elt Ideal)) (x5 : (⟨S256, .f32⟩ : BufTy).Contents (Elt Ideal))
    (x6 : (⟨S3x512x512, .f32⟩ : BufTy).Contents (Elt Ideal)) (x7 : (⟨S3x512, .f32⟩ : BufTy).Contents (Elt Ideal)) (b : Fin 16384) :
    (fun j : Fin 512 => val_main_v40 (F := Ideal) x0 x1 x2 x3 x4 x5 x6 x7 (ix2 b j))
      = Cert.Spec.feat (fun b k => x0 (ix2 b k)) (fun b k => x1 (ix2 b k)) (fun j k => x2 (ix2 j k)) (fun j => x3 (ix1 j))
          (fun j k => x4 (ix2 j k)) (fun j => x5 (ix1 j)) (fun l j k => x6 (ix3 l j k)) (fun l j => x7 (ix2 l j)) b := by
  have h0 : (fun k : Fin 512 => val_main_v10 (F := Ideal) x0 x1 x2 x3 x4 x5 (ix2 b k)) = _ :=
    funext fun k => proj_value x0 x1 x2 x3 x4 x5 b k
  have h1 : (fun k : Fin 512 => val_main_v20 (F := Ideal) x0 x1 x2 x3 x4 x5 x6 x7 (ix2 b k)) = _ :=
    funext fun k => layer0_value x0 x1 x2 x3 x4 x5 x6 x7 b k
  have h2 : (fun k : Fin 512 => val_main_v30 (F := Ideal) x0 x1 x2 x3 x4 x5 x6 x7 (ix2 b k)) = _ :=
    funext fun k => layer1_value x0 x1 x2 x3 x4 x5 x6 x7 b k
  have h3 : (fun k : Fin 512 => val_main_v40 (F := Ideal) x0 x1 x2 x3 x4 x5 x6 x7 (ix2 b k)) = _ :=
    funext fun k => layer2_value x0 x1 x2 x3 x4 x5 x6 x7 b k
  rw [h3, h2, h1, h0]
  rfl

end Cert.ReferenceIdeal.RefValue
end
-- ==== Proof.RefValue.lean ====
/-
  The reference's result, read one entry at a time: the softmax of a head's logits of a row's features.

  The 512 features of a batch row feed 128 heads of 128 logits each (one contraction over the feature axis of both
  operands, plus the head's bias); every head's logits then go through a softmax, computed as the exponential of the
  logit less the head's largest logit over the sum of those exponentials. The largest logit is a fold of `max` over
  the head's 128 logits from the pattern of negative infinity, which denotes the bottom element; the sum is a sum over
  the same 128 coordinates from the zero word. Both are broadcast back along the dropped axis through a unit axis.
  `ref_value` joins these stages with the feature row into the specification's result.
-/
import proofs.«408686_j62697932587080_3_alg».proof.Proof.RefFeatures
import proofs.«408686_j62697932587080_3_alg».proof.Proof.Gen.ReferenceIdeal.Read
import proofs.«408686_j62697932587080_3_alg».proof.Proof.Spec
import Idealize.ShloMosaic.Lib.ValueIdx
import Idealize.ShloMosaic.PureOps.Reduce
import Idealize.ShloMosaic.PureOps.Ideal.Laws

noncomputable section

open Idealize.ShloMosaic Idealize.ShloMosaic.TcCoe Idealize.ShloMosaic.ValueIdx Idealize.SL.Sem
open scoped BigOperators

namespace Cert.ReferenceIdeal.RefValue
open Cert.ReferenceIdeal Cert.ReferenceIdeal.Gen Cert.ReferenceIdeal.Read

/-! ## The logits -/

/-- Logit `o` of head `h` in row `b`: the feature row against the head's weights for that logit (the contraction runs
    over the feature axis of both operands) plus the head's bias for it. -/
theorem logit_value (x0 : (⟨S16384x512, .f32⟩ : BufTy).Contents (Elt Ideal)) (x1 : (⟨S16384x64, .f32⟩ : BufTy).Contents (Elt Ideal))
    (x2 : (⟨S256x512, .f32⟩ : BufTy).Contents (Elt Ideal)) (x3 : (⟨S256, .f32⟩ : BufTy).Contents (Elt Ideal))
    (x4 : (⟨S256x64, .f32⟩ : BufTy).Contents (Elt Ideal)) (x5 : (⟨S256, .f32⟩ : BufTy).Contents (Elt Ideal))
    (x6 : (⟨S3x512x512, .f32⟩ : BufTy).Contents (Elt Ideal)) (x7 : (⟨S3x512, .f32⟩ : BufTy).Contents (Elt Ideal))
    (x8 : (⟨S128x128x512, .f32⟩ : BufTy).Contents (Elt Ideal)) (x9 : (⟨S128x128, .f32⟩ : BufTy).Contents (Elt Ideal)) (b : Fin 16384) (h o : Fin 128) :
    val_main_v44 (F := Ideal) x0 x1 x2 x3 x4 x5 x6 x7 x8 x9 (ix3 b h o)
      = Cert.Spec.logit (fun f => val_main_v40 (F := Ideal) x0 x1 x2 x3 x4 x5 x6 x7 (ix2 b f))
          (fun h o f => x8 (ix3 h o f)) (fun h o => x9 (ix2 h o)) h o := by
  have el : ∀ k : Fin 512, lidx_main_v41 (ix3 b h o) k = ix2 b k := fun k =>
    funext fun a => Fin.ext (by match a with | ⟨0, _⟩ => rfl | ⟨1, _⟩ => rfl)
  have er : ∀ k : Fin 512, ridx_main_v41 (ix3 b h o) k = ix3 h o k := fun k =>
    funext fun a => Fin.ext (by match a with | ⟨0, _⟩ => rfl | ⟨1, _⟩ => rfl | ⟨2, _⟩ => rfl)
  have eb : idx_main_v42 (idx_main_v43 (ix3 b h o)) = ix2 h o :=
    funext fun a => Fin.ext (by match a with | ⟨0, _⟩ => rfl | ⟨1, _⟩ => rfl)
  unfold Cert.Spec.logit
  rw [val_main_v44_apply, val_main_v41_apply, val_main_v43_apply, val_main_v42_apply]
  simp only [el, er, eb, Ideal.addf_def]

/-! ## The softmax of a head's logits -/

/-- The last axis of the logits is dropped by the reductions: [16384,128,128] to [16384,128]. -/
theorem reduces_last : S16384x128x128.Reduces [2] S16384x128 := by decide

/-- Over the result index (b, h), coordinate `k` of the dropped axis gives the source index (b, h, k). -/
theorem lift_last (b : Fin 16384) (h : Fin 128) (k : Fin 128) :
    reduces_last.lift (ix2 b h) k = ix3 b h k :=
  funext fun a => Fin.ext (by match a with | ⟨0, _⟩ => rfl | ⟨1, _⟩ => rfl | ⟨2, _⟩ => rfl)

/-- The largest logit of head `h` in row `b`: the reduction folds `max` over the head's 128 logits from the pattern
    of negative infinity, which denotes the bottom element; the `maximum` with a broadcast negative infinity that
    follows changes nothing. -/
theorem rowmax_value (x0 : (⟨S16384x512, .f32⟩ : BufTy).Contents (Elt Ideal)) (x1 : (⟨S16384x64, .f32⟩ : BufTy).Contents (Elt Ideal))
    (x2 : (⟨S256x512, .f32⟩ : BufTy).Contents (Elt Ideal)) (x3 : (⟨S256, .f32⟩ : BufTy).Contents (Elt Ideal))
    (x4 : (⟨S256x64, .f32⟩ : BufTy).Contents (Elt Ideal)) (x5 : (⟨S256, .f32⟩ : BufTy).Contents (Elt Ideal))
    (x6 : (⟨S3x512x512, .f32⟩ : BufTy).Contents (Elt Ideal)) (x7 : (⟨S3x512, .f32⟩ : BufTy).Contents (Elt Ideal))
    (x8 : (⟨S128x128x512, .f32⟩ : BufTy).Contents (Elt Ideal)) (x9 : (⟨S128x128, .f32⟩ : BufTy).Contents (Elt Ideal)) (b : Fin 16384) (h : Fin 128) :
    val_main_v47 (F := Ideal) x0 x1 x2 x3 x4 x5 x6 x7 x8 x9 (ix2 b h)
      = Cert.Spec.rowMax (fun o => val_main_v44 (F := Ideal) x0 x1 x2 x3 x4 x5 x6 x7 x8 x9 (ix3 b h o)) := by
  rw [val_main_v47_apply, val_main_v46_apply, val_main_cst_0_apply]
  unfold val_main_v45 Cert.Spec.rowMax
  generalize val_main_v44 (F := Ideal) x0 x1 x2 x3 x4 x5 x6 x7 x8 x9 = y
  rw [Host.reduce_eq_fold_single (FloatOps.maximumf (F := Ideal) (φ := .f32)) _ _ _ reduces_last, val_main_cst_apply]
  simp only [Ideal.ofBits_def, Cert.Spec.ofBits_neg_inf, Ideal.maximumf_def, bot_le, max_eq_right]
  refine Finset.fold_congr fun k _ => ?_
  exact congrArg y (lift_last b h k)

/-- The exponential of a logit less its head's largest logit (the row maximum is broadcast back along the dropped
    axis through a unit axis, so (b, h, o) reads it at (b, h)). -/
theorem expo_value (x0 : (⟨S16384x512, .f32⟩ : BufTy).Contents (Elt Ideal)) (x1 : (⟨S16384x64, .f32⟩ : BufTy).Contents (Elt Ideal))
    (x2 : (⟨S256x512, .f32⟩ : BufTy).Contents (Elt Ideal)) (x3 : (⟨S256, .f32⟩ : BufTy).Contents (Elt Ideal))
    (x4 : (⟨S256x64, .f32⟩ : BufTy).Contents (Elt Ideal)) (x5 : (⟨S256, .f32⟩ : BufTy).Contents (Elt Ideal))
    (x6 : (⟨S3x512x512, .f32⟩ : BufTy).Contents (Elt Ideal)) (x7 : (⟨S3x512, .f32⟩ : BufTy).Contents (Elt Ideal))
    (x8 : (⟨S128x128x512, .f32⟩ : BufTy).Contents (Elt Ideal)) (x9 : (⟨S128x128, .f32⟩ : BufTy).Contents (Elt Ideal)) (b : Fin 16384) (h o : Fin 128) :
    val_main_v51 (F := Ideal) x0 x1 x2 x3 x4 x5 x6 x7 x8 x9 (ix3 b h o)
      = Ideal.exp (val_main_v44 (F := Ideal) x0 x1 x2 x3 x4 x5 x6 x7 x8 x9 (ix3 b h o)
          - Cert.Spec.rowMax (fun o' => val_main_v44 (F := Ideal) x0 x1 x2 x3 x4 x5 x6 x7 x8 x9 (ix3 b h o'))) := by
  have em : idx_main_v48 (idx_main_v49 (ix3 b h o)) = ix2 b h :=
    funext fun a => Fin.ext (by match a with | ⟨0, _⟩ => rfl | ⟨1, _⟩ => rfl)
  rw [val_main_v51_apply, val_main_v50_apply, val_main_v49_apply, val_main_v48_apply, em, rowmax_value,
    Ideal.hostUnary_exp_def, Ideal.subf_def]

/-- The quotient: the exponential over the sum of the head's 128 exponentials (the sum starts from the zero word and
    is broadcast back like the maximum). -/
theorem softmax_value (x0 : (⟨S16384x512, .f32⟩ : BufTy).Contents (Elt Ideal)) (x1 : (⟨S16384x64, .f32⟩ : BufTy).Contents (Elt Ideal))
    (x2 : (⟨S256x512, .f32⟩ : BufTy).Contents (Elt Ideal)) (x3 : (⟨S256, .f32⟩ : BufTy).Contents (Elt Ideal))
    (x4 : (⟨S256x64, .f32⟩ : BufTy).Contents (Elt Ideal)) (x5 : (⟨S256, .f32⟩ : BufTy).Contents (Elt Ideal))
    (x6 : (⟨S3x512x512, .f32⟩ : BufTy).Contents (Elt Ideal)) (x7 : (⟨S3x512, .f32⟩ : BufTy).Contents (Elt Ideal))
    (x8 : (⟨S128x128x512, .f32⟩ : BufTy).Contents (Elt Ideal)) (x9 : (⟨S128x128, .f32⟩ : BufTy).Contents (Elt Ideal)) (b : Fin 16384) (h o : Fin 128) :
    val_main_v55 (F := Ideal) x0 x1 x2 x3 x4 x5 x6 x7 x8 x9 (ix3 b h o)
      = Cert.Spec.softmax (fun o' => val_main_v44 (F := Ideal) x0 x1 x2 x3 x4 x5 x6 x7 x8 x9 (ix3 b h o')) o := by
  have es : idx_main_v53 (idx_main_v54 (ix3 b h o)) = ix2 b h :=
    funext fun a => Fin.ext (by match a with | ⟨0, _⟩ => rfl | ⟨1, _⟩ => rfl)
  have ek : ∀ k : Fin 128, idx_main_v52 (ix2 b h) k = ix3 b h k := fun k =>
    funext fun a => Fin.ext (by match a with | ⟨0, _⟩ => rfl | ⟨1, _⟩ => rfl | ⟨2, _⟩ => rfl)
  unfold Cert.Spec.softmax
  rw [val_main_v55_apply, val_main_v54_apply, val_main_v53_apply, es, val_main_v52_apply, val_main_cst_1_apply,
    expo_value]
  simp only [ek, expo_value, Ideal.hostDivf_def, Ideal.ofBits_def, Ideal.ofBits_zero_f32, zero_add]

/-! ## The result -/

/-- The reference's result at (row, head, logit): the softmax of the head's logits of the row's features. -/
theorem ref_value (x0 : (⟨S16384x512, .f32⟩ : BufTy).Contents (Elt Ideal)) (x1 : (⟨S16384x64, .f32⟩ : BufTy).Contents (Elt Ideal))
    (x2 : (⟨S256x512, .f32⟩ : BufTy).Contents (Elt Ideal)) (x3 : (⟨S256, .f32⟩ : BufTy).Contents (Elt Ideal))
    (x4 : (⟨S256x64, .f32⟩ : BufTy).Contents (Elt Ideal)) (x5 : (⟨S256, .f32⟩ : BufTy).Contents (Elt Ideal))
    (x6 : (⟨S3x512x512, .f32⟩ : BufTy).Contents (Elt Ideal)) (x7 : (⟨S3x512, .f32⟩ : BufTy).Contents (Elt Ideal))
    (x8 : (⟨S128x128x512, .f32⟩ : BufTy).Contents (Elt Ideal)) (x9 : (⟨S128x128, .f32⟩ : BufTy).Contents (Elt Ideal))
    (b : Fin 16384) (h o : Fin 128) :
    val_main_v55 (F := Ideal) x0 x1 x2 x3 x4 x5 x6 x7 x8 x9 (ix3 b h o)
      = Cert.Spec.heads
          (Cert.Spec.feat (fun b k => x0 (ix2 b k)) (fun b k => x1 (ix2 b k))
            (fun j k => x2 (ix2 j k)) (fun j => x3 (ix1 j)) (fun j k => x4 (ix2 j k)) (fun j => x5 (ix1 j))
            (fun l j k => x6 (ix3 l j k)) (fun l j => x7 (ix2 l j)))
          (fun h o f => x8 (ix3 h o f)) (fun h o => x9 (ix2 h o)) b h o := by
  have hl : (fun o' : Fin 128 => val_main_v44 (F := Ideal) x0 x1 x2 x3 x4 x5 x6 x7 x8 x9 (ix3 b h o')) = _ :=
    funext fun o' => logit_value x0 x1 x2 x3 x4 x5 x6 x7 x8 x9 b h o'
  unfold Cert.Spec.heads
  rw [softmax_value, hl, feat_value]

end Cert.ReferenceIdeal.RefValue
end
-- ==== Proof.lean ====
/-
  The certificate's claim. Both programs compute, for every batch row, the same thing over the extended reals: the
  observation and the action are projected by two affine maps and laid side by side; three affine layers follow, each
  on the positive part of its input; the resulting 512 features feed 128 heads of 128 logits, and each head's logits
  go through a softmax (the exponential of a logit less the head's largest, over the sum of those exponentials).
  The kernel program does it in two pallas_calls over blocks of 256 batch rows (the second also over tiles of 32
  heads, four chunks of 8 heads each), with its weights transposed and flattened on the host beforehand; the reference
  does it with whole-array host operations. No law beyond the sums' and products' own is needed: the two sides are the
  same sums of the same products, so the inputs' finiteness is never used.

  The three frames are the programs' runs with the value dropped; nothing was rewritten when the kernel was idealized,
  so that conjunct is trivial; the value conjunct names the kernel's result array after its run, reads it at an index
  as the softmax of the features' logits (the two calls chained), and reads the reference's result at the same index
  as the same function of arguments that agree.
-/
import proofs.«408686_j62697932587080_3_alg».proof.Defs
import proofs.«408686_j62697932587080_3_alg».proof.Proof.Gen.Kernel
import proofs.«408686_j62697932587080_3_alg».proof.Proof.Gen.Kernel.Skeleton
import proofs.«408686_j62697932587080_3_alg».proof.Proof.Gen.Kernel.Launch
import proofs.«408686_j62697932587080_3_alg».proof.Proof.Gen.Kernel.Points
import proofs.«408686_j62697932587080_3_alg».proof.Proof.Gen.Kernel.Frame
import proofs.«408686_j62697932587080_3_alg».proof.Proof.Gen.KernelIdeal
import proofs.«408686_j62697932587080_3_alg».proof.Proof.Gen.KernelIdeal.Skeleton
import proofs.«408686_j62697932587080_3_alg».proof.Proof.Gen.KernelIdeal.Launch
import proofs.«408686_j62697932587080_3_alg».proof.Proof.Gen.KernelIdeal.Points
import proofs.«408686_j62697932587080_3_alg».proof.Proof.Gen.KernelIdeal.Frame
import proofs.«408686_j62697932587080_3_alg».proof.Proof.Gen.ReferenceIdeal
import proofs.«408686_j62697932587080_3_alg».proof.Proof.Gen.Pre_finite_inputs
import proofs.«408686_j62697932587080_3_alg».proof.Proof.Gen.ReferenceIdeal.Run
import proofs.«408686_j62697932587080_3_alg».proof.Proof.Gen.ReferenceIdeal.Read
import proofs.«408686_j62697932587080_3_alg».proof.Proof.Spec
import proofs.«408686_j62697932587080_3_alg».proof.Proof.RunResult
import proofs.«408686_j62697932587080_3_alg».proof.Proof.Chain
import proofs.«408686_j62697932587080_3_alg».proof.Proof.RefValue
import Idealize.ShloMosaic.Lib.ValueIdx
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end, from memories agreeing on the arguments, with the result array at one function of the
    arguments: at (batch row, head, logit) the softmax of that head's logits of the row's features. -/
theorem algebraic : Cert.algebraic_KernelIdeal_ReferenceIdeal := by
  intro m ρ m' ρ' _ hagree
  refine ⟨fun c => Cert.KernelIdeal.Gen.W3 (F := Ideal) m ρ c (Proc.devRef .tc Cert.KernelIdeal.main_v15),
    Cert.KernelIdeal.RunResult.run_result (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  obtain ⟨b, hd, o, rfl⟩ : ∃ (b : Fin 16384) (hd o : Fin 128), i = ix3 b hd o := ⟨i 0, i 1, i 2, eq_ix3 i⟩
  rw [Cert.ReferenceIdeal.Read.val_main_v55_eq m' c]
  refine (Cert.ReferenceIdeal.RefValue.ref_value _ _ _ _ _ _ _ _ _ _ b hd o).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact (Cert.KernelIdeal.Chain.result_at m ρ c b hd o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
